-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S16384x2 : Shape := ⟨2, ![16384, 2]⟩
abbrev S16384x32 : Shape := ⟨2, ![16384, 32]⟩
abbrev S16384x4096 : Shape := ⟨2, ![16384, 4096]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S32x512 : Shape := ⟨2, ![32, 512]⟩
abbrev S512 : Shape := ⟨1, ![512]⟩
abbrev S512x4096 : Shape := ⟨2, ![512, 4096]⟩
abbrev S4096x51 : Shape := ⟨2, ![4096, 51]⟩
abbrev S51 : Shape := ⟨1, ![51]⟩
abbrev S22801x51 : Shape := ⟨2, ![22801, 51]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S16384x32 : S_.BroadcastsInDim S16384x32 (![] : Fin 0 → Fin S16384x32.rank)
  reducesTo_S16384x32_S_d0_1 : S16384x32.ReducesTo [0, 1] S_
  bcast_S_S16384x4096 : S_.BroadcastsInDim S16384x4096 (![] : Fin 0 → Fin S16384x4096.rank)
  reducesTo_S16384x4096_S_d0_1 : S16384x4096.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S32x512 : S_.BroadcastsInDim S32x512 (![] : Fin 0 → Fin S32x512.rank)
  reducesTo_S32x512_S_d0_1 : S32x512.ReducesTo [0, 1] S_
  bcast_S_S512 : S_.BroadcastsInDim S512 (![] : Fin 0 → Fin S512.rank)
  reducesTo_S512_S_d0 : S512.ReducesTo [0] S_
  bcast_S_S512x4096 : S_.BroadcastsInDim S512x4096 (![] : Fin 0 → Fin S512x4096.rank)
  reducesTo_S512x4096_S_d0_1 : S512x4096.ReducesTo [0, 1] S_
  bcast_S_S4096x51 : S_.BroadcastsInDim S4096x51 (![] : Fin 0 → Fin S4096x51.rank)
  reducesTo_S4096x51_S_d0_1 : S4096x51.ReducesTo [0, 1] S_
  bcast_S_S51 : S_.BroadcastsInDim S51 (![] : Fin 0 → Fin S51.rank)
  reducesTo_S51_S_d0 : S51.ReducesTo [0] S_
  bcast_S_S22801x51 : S_.BroadcastsInDim S22801x51 (![] : Fin 0 → Fin S22801x51.rank)
  reducesTo_S22801x51_S_d0_1 : S22801x51.ReducesTo [0, 1] S_

variable [Facts]

def fn_part5 {F : FTy → Type} [FloatOps F] (main_v83 : IVec S_ 1) (main_v84 : FVec F S22801x51 .f32) (main_cst_32 : FVec F S_ .f32) : IVec S_ 1 :=
  let main_v85 : FVec F S22801x51 .f32 := broadcastInDim S22801x51 ![] bcast_S_S22801x51 main_cst_32
  let main_v86 : IVec S22801x51 1 := cmpf .olt main_v84 main_v85
  let main_c_33 : IVec S_ 1 := constantI S_ 1 1#1
  let main_v87 : IVec S_ 1 := (fun x v => Host.reduce IntOp.andi x v reducesTo_S22801x51_S_d0_1 h_S_) main_v86 main_c_33
  let main_v88 : IVec S_ 1 := andi main_v83 main_v87
  main_v88

def fn_part4 {F : FTy → Type} [FloatOps F] (main_arg16 : FVec F S51 .f32) (main_arg17 : FVec F S4096x51 .f32) (main_arg18 : FVec F S51 .f32) (main_arg19 : FVec F S22801x51 .f32) (main_v63 : IVec S_ 1) (main_v67 : IVec S_ 1) : IVec S_ 1 :=
  let main_v68 : IVec S_ 1 := andi main_v63 main_v67
  let main_v69 : FVec F S51 .f32 := Host.absf main_arg16
  let main_cst_26 : FVec F S_ .f32 := constant S_ .f32 0x7F800000#32
  let main_v70 : FVec F S51 .f32 := broadcastInDim S51 ![] bcast_S_S51 main_cst_26
  let main_v71 : IVec S51 1 := cmpf .olt main_v69 main_v70
  let main_c_27 : IVec S_ 1 := constantI S_ 1 1#1
  let main_v72 : IVec S_ 1 := (fun x v => Host.reduce IntOp.andi x v reducesTo_S51_S_d0 h_S_) main_v71 main_c_27
  let main_v73 : IVec S_ 1 := andi main_v68 main_v72
  let main_v74 : FVec F S4096x51 .f32 := Host.absf main_arg17
  let main_cst_28 : FVec F S_ .f32 := constant S_ .f32 0x7F800000#32
  let main_v75 : FVec F S4096x51 .f32 := broadcastInDim S4096x51 ![] bcast_S_S4096x51 main_cst_28
  let main_v76 : IVec S4096x51 1 := cmpf .olt main_v74 main_v75
  let main_c_29 : IVec S_ 1 := constantI S_ 1 1#1
  let main_v77 : IVec S_ 1 := (fun x v => Host.reduce IntOp.andi x v reducesTo_S4096x51_S_d0_1 h_S_) main_v76 main_c_29
  let main_v78 : IVec S_ 1 := andi main_v73 main_v77
  let main_v79 : FVec F S51 .f32 := Host.absf main_arg18
  let main_cst_30 : FVec F S_ .f32 := constant S_ .f32 0x7F800000#32
  let main_v80 : FVec F S51 .f32 := broadcastInDim S51 ![] bcast_S_S51 main_cst_30
  let main_v81 : IVec S51 1 := cmpf .olt main_v79 main_v80
  let main_c_31 : IVec S_ 1 := constantI S_ 1 1#1
  let main_v82 : IVec S_ 1 := (fun x v => Host.reduce IntOp.andi x v reducesTo_S51_S_d0 h_S_) main_v81 main_c_31
  let main_v83 : IVec S_ 1 := andi main_v78 main_v82
  let main_v84 : FVec F S22801x51 .f32 := Host.absf main_arg19
  let main_cst_32 : FVec F S_ .f32 := constant S_ .f32 0x7F800000#32
  fn_part5 (F := F) main_v83 main_v84 main_cst_32

def fn_part3 {F : FTy → Type} [FloatOps F] (main_arg13 : FVec F S4096x51 .f32) (main_arg14 : FVec F S51 .f32) (main_arg15 : FVec F S4096x51 .f32) (main_arg16 : FVec F S51 .f32) (main_arg17 : FVec F S4096x51 .f32) (main_arg18 : FVec F S51 .f32) (main_arg19 : FVec F S22801x51 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096x51 .f32 := Host.absf main_arg13
  let main_cst_20 : FVec F S_ .f32 := constant S_ .f32 0x7F800000#32
  let main_v55 : FVec F S4096x51 .f32 := broadcastInDim S4096x51 ![] bcast_S_S4096x51 main_cst_20
  let main_v56 : IVec S4096x51 1 := cmpf .olt main_v54 main_v55
  let main_c_21 : IVec S_ 1 := constantI S_ 1 1#1
  let main_v57 : IVec S_ 1 := (fun x v => Host.reduce IntOp.andi x v reducesTo_S4096x51_S_d0_1 h_S_) main_v56 main_c_21
  let main_v58 : IVec S_ 1 := andi main_v53 main_v57
  let main_v59 : FVec F S51 .f32 := Host.absf main_arg14
  let main_cst_22 : FVec F S_ .f32 := constant S_ .f32 0x7F800000#32
  let main_v60 : FVec F S51 .f32 := broadcastInDim S51 ![] bcast_S_S51 main_cst_22
  let main_v61 : IVec S51 1 := cmpf .olt main_v59 main_v60
  let main_c_23 : IVec S_ 1 := constantI S_ 1 1#1
  let main_v62 : IVec S_ 1 := (fun x v => Host.reduce IntOp.andi x v reducesTo_S51_S_d0 h_S_) main_v61 main_c_23
  let main_v63 : IVec S_ 1 := andi main_v58 main_v62
  let main_v64 : FVec F S4096x51 .f32 := Host.absf main_arg15
  let main_cst_24 : FVec F S_ .f32 := constant S_ .f32 0x7F800000#32
  let main_v65 : FVec F S4096x51 .f32 := broadcastInDim S4096x51 ![] bcast_S_S4096x51 main_cst_24
  let main_v66 : IVec S4096x51 1 := cmpf .olt main_v64 main_v65
  let main_c_25 : IVec S_ 1 := constantI S_ 1 1#1
  let main_v67 : IVec S_ 1 := (fun x v => Host.reduce IntOp.andi x v reducesTo_S4096x51_S_d0_1 h_S_) main_v66 main_c_25
  fn_part4 (F := F) main_arg16 main_arg17 main_arg18 main_arg19 main_v63 main_v67

def fn_part2 {F : FTy → Type} [FloatOps F] (main_arg9 : FVec F S32x512 .f32) (main_arg10 : FVec F S512 .f32) (main_arg11 : FVec F S512x4096 .f32) (main_arg12 : FVec F S4096 .f32) (main_arg13 : FVec F S4096x51 .f32) (main_arg14 : FVec F S51 .f32) (main_arg15 : FVec F S4096x51 .f32) (main_arg16 : FVec F S51 .f32) (main_arg17 : FVec F S4096x51 .f32) (main_arg18 : FVec F S51 .f32) (main_arg19 : FVec F S22801x51 .f32) (main_v33 : IVec S_ 1) : IVec S_ 1 :=
  let main_v34 : FVec F S32x512 .f32 := Host.absf main_arg9
  let main_cst_12 : FVec F S_ .f32 := constant S_ .f32 0x7F800000#32
  let main_v35 : FVec F S32x512 .f32 := broadcastInDim S32x512 ![] bcast_S_S32x512 main_cst_12
  let main_v36 : IVec S32x512 1 := cmpf .olt main_v34 main_v35
  let main_c_13 : IVec S_ 1 := constantI S_ 1 1#1
  let main_v37 : IVec S_ 1 := (fun x v => Host.reduce IntOp.andi x v reducesTo_S32x512_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x4096 .f32 := Host.absf main_arg11
  let main_cst_16 : FVec F S_ .f32 := constant S_ .f32 0x7F800000#32
  let main_v45 : FVec F S512x4096 .f32 := broadcastInDim S512x4096 ![] bcast_S_S512x4096 main_cst_16
  let main_v46 : IVec S512x4096 1 := cmpf .olt main_v44 main_v45
  let main_c_17 : IVec S_ 1 := constantI S_ 1 1#1
  let main_v47 : IVec S_ 1 := (fun x v => Host.reduce IntOp.andi x v reducesTo_S512x4096_S_d0_1 h_S_) main_v46 main_c_17
  let main_v48 : IVec S_ 1 := andi main_v43 main_v47
  let main_v49 : FVec F S4096 .f32 := Host.absf main_arg12
  let main_cst_18 : FVec F S_ .f32 := constant S_ .f32 0x7F800000#32
  let main_v50 : FVec F S4096 .f32 := broadcastInDim S4096 ![] bcast_S_S4096 main_cst_18
  fn_part3 (F := F) main_arg13 main_arg14 main_arg15 main_arg16 main_arg17 main_arg18 main_arg19 main_v48 main_v49 main_v50

def fn_part1 {F : FTy → Type} [FloatOps F] (main_arg6 : FVec F S1024 .f32) (main_arg7 : FVec F S1024x4096 .f32) (main_arg8 : FVec F S4096 .f32) (main_arg9 : FVec F S32x512 .f32) (main_arg10 : FVec F S512 .f32) (main_arg11 : FVec F S512x4096 .f32) (main_arg12 : FVec F S4096 .f32) (main_arg13 : FVec F S4096x51 .f32) (main_arg14 : FVec F S51 .f32) (main_arg15 : FVec F S4096x51 .f32) (main_arg16 : FVec F S51 .f32) (main_arg17 : FVec F S4096x51 .f32) (main_arg18 : FVec F S51 .f32) (main_arg19 : FVec F S22801x51 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x4096 .f32 := Host.absf main_arg7
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S4096 .f32 := Host.absf main_arg8
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S4096x512 .f32) (main_arg1 : IVec S16384x2 32) (main_arg2 : IVec S16384x2 32) (main_arg3 : FVec F S16384x32 .f32) (main_arg4 : FVec F S16384x4096 .f32) (main_arg5 : FVec F S512x1024 .f32) (main_arg6 : FVec F S1024 .f32) (main_arg7 : FVec F S1024x4096 .f32) (main_arg8 : FVec F S4096 .f32) (main_arg9 : FVec F S32x512 .f32) (main_arg10 : FVec F S512 .f32) (main_arg11 : FVec F S512x4096 .f32) (main_arg12 : FVec F S4096 .f32) (main_arg13 : FVec F S4096x51 .f32) (main_arg14 : FVec F S51 .f32) (main_arg15 : FVec F S4096x51 .f32) (main_arg16 : FVec F S51 .f32) (main_arg17 : FVec F S4096x51 .f32) (main_arg18 : FVec F S51 .f32) (main_arg19 : FVec F S22801x51 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S16384x32 .f32 := Host.absf main_arg3
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S16384x4096 .f32 := Host.absf main_arg4
  let main_cst_2 : FVec F S_ .f32 := constant S_ .f32 0x7F800000#32
  let main_v10 : FVec F S16384x4096 .f32 := broadcastInDim S16384x4096 ![] bcast_S_S16384x4096 main_cst_2
  let main_v11 : IVec S16384x4096 1 := cmpf .olt main_v9 main_v10
  let main_c_3 : IVec S_ 1 := constantI S_ 1 1#1
  let main_v12 : IVec S_ 1 := (fun x v => Host.reduce IntOp.andi x v reducesTo_S16384x4096_S_d0_1 h_S_) main_v11 main_c_3
  let main_v13 : IVec S_ 1 := andi main_v8 main_v12
  let main_v14 : FVec F S512x1024 .f32 := Host.absf main_arg5
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S4096x512 : Shape := ⟨2, ![4096, 512]⟩
abbrev S16384x2 : Shape := ⟨2, ![16384, 2]⟩
abbrev S16384x32 : Shape := ⟨2, ![16384, 32]⟩
abbrev S16384x4096 : Shape := ⟨2, ![16384, 4096]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S32x512 : Shape := ⟨2, ![32, 512]⟩
abbrev S512 : Shape := ⟨1, ![512]⟩
abbrev S512x4096 : Shape := ⟨2, ![512, 4096]⟩
abbrev S4096x51 : Shape := ⟨2, ![4096, 51]⟩
abbrev S51 : Shape := ⟨1, ![51]⟩
abbrev S22801x51 : Shape := ⟨2, ![22801, 51]⟩
abbrev S4096x1024 : Shape := ⟨2, ![4096, 1024]⟩
abbrev S1024x512 : Shape := ⟨2, ![1024, 512]⟩
abbrev S1024x1024 : Shape := ⟨2, ![1024, 1024]⟩
abbrev S1x1024 : Shape := ⟨2, ![1, 1024]⟩
abbrev S4096x2x512 : Shape := ⟨3, ![4096, 2, 512]⟩
abbrev S4096x1x512 : Shape := ⟨3, ![4096, 1, 512]⟩
abbrev S16384x1 : Shape := ⟨2, ![16384, 1]⟩
abbrev S16384 : Shape := ⟨1, ![16384]⟩
abbrev S_ : Shape := ⟨0, ![]⟩
abbrev S16384x512 : Shape := ⟨2, ![16384, 512]⟩
abbrev S16384x1024 : Shape := ⟨2, ![16384, 1024]⟩
abbrev S16384x51 : Shape := ⟨2, ![16384, 51]⟩
abbrev S128x1024 : Shape := ⟨2, ![128, 1024]⟩
abbrev S128x32 : Shape := ⟨2, ![128, 32]⟩
abbrev S128x4096 : Shape := ⟨2, ![128, 4096]⟩
abbrev S128x51 : Shape := ⟨2, ![128, 51]⟩
abbrev S1x4096 : Shape := ⟨2, ![1, 4096]⟩
abbrev S128x512 : Shape := ⟨2, ![128, 512]⟩
abbrev S1x512 : Shape := ⟨2, ![1, 512]⟩
abbrev S1x51 : Shape := ⟨2, ![1, 51]⟩

abbrev nBuf : Space → Nat
  | .hbm => 74
  | .vmem => 28
  | .smem => 0
  | _ => 0

abbrev bufTy : (tb : Table) → Fin (tcTables nBuf tb) → BufTy
  | .hbm, ⟨0, _⟩ => ⟨S4096x512, .f32⟩
  | .hbm, ⟨1, _⟩ => ⟨S16384x2, .i32⟩
  | .hbm, ⟨2, _⟩ => ⟨S16384x2, .i32⟩
  | .hbm, ⟨3, _⟩ => ⟨S16384x32, .f32⟩
  | .hbm, ⟨4, _⟩ => ⟨S16384x4096, .f32⟩
  | .hbm, ⟨5, _⟩ => ⟨S512x1024, .f32⟩
  | .hbm, ⟨6, _⟩ => ⟨S1024, .f32⟩
  | .hbm, ⟨7, _⟩ => ⟨S1024x4096, .f32⟩
  | .hbm, ⟨8, _⟩ => ⟨S4096, .f32⟩
  | .hbm, ⟨9, _⟩ => ⟨S32x512, .f32⟩
  | .hbm, ⟨10, _⟩ => ⟨S512, .f32⟩
  | .hbm, ⟨11, _⟩ => ⟨S512x4096, .f32⟩
  | .hbm, ⟨12, _⟩ => ⟨S4096, .f32⟩
  | .hbm, ⟨13, _⟩ => ⟨S4096x51, .f32⟩
  | .hbm, ⟨14, _⟩ => ⟨S51, .f32⟩
  | .hbm, ⟨15, _⟩ => ⟨S4096x51, .f32⟩
  | .hbm, ⟨16, _⟩ => ⟨S51, .f32⟩
  | .hbm, ⟨17, _⟩ => ⟨S4096x51, .f32⟩
  | .hbm, ⟨18, _⟩ => ⟨S51, .f32⟩
  | .hbm, ⟨19, _⟩ => ⟨S22801x51, .f32⟩
  | .hbm, ⟨20, _⟩ => ⟨S512x1024, .bf16⟩
  | .hbm, ⟨21, _⟩ => ⟨S1024x4096, .bf16⟩
  | .hbm, ⟨22, _⟩ => ⟨S32x512, .bf16⟩
  | .hbm, ⟨23, _⟩ => ⟨S512x4096, .bf16⟩
  | .hbm, ⟨24, _⟩ => ⟨S4096x51, .bf16⟩
  | .hbm, ⟨25, _⟩ => ⟨S4096x51, .bf16⟩
  | .hbm, ⟨26, _⟩ => ⟨S4096x51, .bf16⟩
  | .hbm, ⟨27, _⟩ => ⟨S4096x1024, .f32⟩
  | .hbm, ⟨28, _⟩ => ⟨S4096x2x512, .f32⟩
  | .hbm, ⟨29, _⟩ => ⟨S4096x1x512, .f32⟩
  | .hbm, ⟨30, _⟩ => ⟨S4096x512, .f32⟩
  | .hbm, ⟨31, _⟩ => ⟨S4096x1x512, .f32⟩
  | .hbm, ⟨32, _⟩ => ⟨S4096x512, .f32⟩
  | .hbm, ⟨33, _⟩ => ⟨S16384x1, .i32⟩
  | .hbm, ⟨34, _⟩ => ⟨S16384, .i32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S16384x1, .i32⟩
  | .hbm, ⟨43, _⟩ => ⟨S16384x512, .f32⟩
  | .hbm, ⟨44, _⟩ => ⟨S16384x1, .i32⟩
  | .hbm, ⟨45, _⟩ => ⟨S16384, .i32⟩
  | .hbm, ⟨46, _⟩ => ⟨S_, .i32⟩
  | .hbm, ⟨47, _⟩ => ⟨S16384, .i32⟩
  | .hbm, ⟨48, _⟩ => ⟨S16384, .i1⟩
  | .hbm, ⟨49, _⟩ => ⟨S_, .i32⟩
  | .hbm, ⟨50, _⟩ => ⟨S16384, .i32⟩
  | .hbm, ⟨51, _⟩ => ⟨S16384, .i32⟩
  | .hbm, ⟨52, _⟩ => ⟨S16384, .i32⟩
  | .hbm, ⟨53, _⟩ => ⟨S16384x1, .i32⟩
  | .hbm, ⟨54, _⟩ => ⟨S16384x512, .f32⟩
  | .hbm, ⟨55, _⟩ => ⟨S16384x1024, .f32⟩
  | .hbm, ⟨56, _⟩ => ⟨S16384x1, .i32⟩
  | .hbm, ⟨57, _⟩ => ⟨S16384, .i32⟩
  | .hbm, ⟨58, _⟩ => ⟨S_, .i32⟩
  | .hbm, ⟨59, _⟩ => ⟨S16384, .i32⟩
  | .hbm, ⟨60, _⟩ => ⟨S16384, .i32⟩
  | .hbm, ⟨61, _⟩ => ⟨S16384x1, .i32⟩
  | .hbm, ⟨62, _⟩ => ⟨S16384, .i32⟩
  | .hbm, ⟨63, _⟩ => ⟨S16384, .i32⟩
  | .hbm, ⟨64, _⟩ => ⟨S_, .i32⟩
  | .hbm, ⟨65, _⟩ => ⟨S16384, .i32⟩
  | .hbm, ⟨66, _⟩ => ⟨S16384, .i1⟩
  | .hbm, ⟨67, _⟩ => ⟨S_, .i32⟩
  | .hbm, ⟨68, _⟩ => ⟨S16384, .i32⟩
  | .hbm, ⟨69, _⟩ => ⟨S16384, .i32⟩
  | .hbm, ⟨70, _⟩ => ⟨S16384, .i32⟩
  | .hbm, ⟨71, _⟩ => ⟨S16384x1, .i32⟩
  | .hbm, ⟨72, _⟩ => ⟨S16384x51, .f32⟩
  | .hbm, ⟨73, _⟩ => ⟨S16384x51, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024, .f32⟩
  | .local _ .vmem, ⟨4, _⟩ => ⟨S1024x1024, .f32⟩
  | .local _ .vmem, ⟨5, _⟩ => ⟨S1024x1024, .f32⟩
  | .local _ .vmem, ⟨6, _⟩ => ⟨S128x1024, .f32⟩
  | .local _ .vmem, ⟨7, _⟩ => ⟨S128x1024, .f32⟩
  | .local _ .vmem, ⟨8, _⟩ => ⟨S128x32, .f32⟩
  | .local _ .vmem, ⟨9, _⟩ => ⟨S128x32, .f32⟩
  | .local _ .vmem, ⟨10, _⟩ => ⟨S128x4096, .f32⟩
  | .local _ .vmem, ⟨11, _⟩ => ⟨S128x4096, .f32⟩
  | .local _ .vmem, ⟨12, _⟩ => ⟨S128x51, .f32⟩
  | .local _ .vmem, ⟨13, _⟩ => ⟨S128x51, .f32⟩
  | .local _ .vmem, ⟨14, _⟩ => ⟨S1024x4096, .bf16⟩
  | .local _ .vmem, ⟨15, _⟩ => ⟨S4096, .f32⟩
  | .local _ .vmem, ⟨16, _⟩ => ⟨S32x512, .bf16⟩
  | .local _ .vmem, ⟨17, _⟩ => ⟨S512, .f32⟩
  | .local _ .vmem, ⟨18, _⟩ => ⟨S512x4096, .bf16⟩
  | .local _ .vmem, ⟨19, _⟩ => ⟨S4096, .f32⟩
  | .local _ .vmem, ⟨20, _⟩ => ⟨S4096x51, .bf16⟩
  | .local _ .vmem, ⟨21, _⟩ => ⟨S51, .f32⟩
  | .local _ .vmem, ⟨22, _⟩ => ⟨S4096x51, .bf16⟩
  | .local _ .vmem, ⟨23, _⟩ => ⟨S51, .f32⟩
  | .local _ .vmem, ⟨24, _⟩ => ⟨S4096x51, .bf16⟩
  | .local _ .vmem, ⟨25, _⟩ => ⟨S51, .f32⟩
  | .local _ .vmem, ⟨26, _⟩ => ⟨S128x51, .f32⟩
  | .local _ .vmem, ⟨27, _⟩ => ⟨S128x51, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_1 : Ref sig .tc := ⟨.hbm, 46, rfl⟩
abbrev main_v24 : Ref sig .tc := ⟨.hbm, 47, rfl⟩
abbrev main_v25 : Ref sig .tc := ⟨.hbm, 48, rfl⟩
abbrev main_c_2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_3 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_4 : Ref sig .tc := ⟨.hbm, 64, rfl⟩
abbrev main_v39 : Ref sig .tc := ⟨.hbm, 65, rfl⟩
abbrev main_v40 : Ref sig .tc := ⟨.hbm, 66, rfl⟩
abbrev main_c_5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg14_0 : Ref sig .tc := ⟨.vmem, 24, rfl⟩
abbrev cc1_stg15_0 : Ref sig .tc := ⟨.vmem, 25, rfl⟩
abbrev cc1_stg16_0 : Ref sig .tc := ⟨.vmem, 26, rfl⟩
abbrev cc1_stg16_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem13_0 : DmaSem sig := 23
abbrev cc1_sem14_0 : DmaSem sig := 24
abbrev cc1_sem15_0 : DmaSem sig := 25
abbrev cc1_sem16_0 : DmaSem sig := 26
abbrev cc1_sem16_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x51 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x4096 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4096 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S4096x51 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S51 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S4096x51 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S51 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S4096x51 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S51 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S128x51 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

class Facts₀ : Prop where
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S4096x1024_S4096x2x512 : S4096x1024.ShapeCasts S4096x2x512
  slices_S4096x2x512_S4096x1x512_0_0_0 : S4096x2x512.Slices ![0, 0, 0] S4096x1x512
  shapeCasts_S4096x1x512_S4096x512 : S4096x1x512.ShapeCasts S4096x512
  slices_S4096x2x512_S4096x1x512_0_1_0 : S4096x2x512.Slices ![0, 1, 0] S4096x1x512
  slices_S16384x2_S16384x1_0_0 : S16384x2.Slices ![0, 0] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  slices_S16384x2_S16384x1_0_1 : S16384x2.Slices ![0, 1] S16384x1
  concatenates_S16384x512_S16384x512_S16384x1024_d1 : Shape.Concatenates [S16384x512, S16384x512] S16384x1024 1
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S128x4096 : S1x4096.Broadcasts S128x4096
  inb_S128x32_S128x32_0_0 : ∀ a, (![0, 0] : Fin 2 → Nat) a + S128x32.size a ≤ S128x32.size a
  h_S128x32 : 0 < S128x32.numel
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x51_S4096x51_0_0 : ∀ a, (![0, 0] : Fin 2 → Nat) a + S4096x51.size a ≤ S4096x51.size a
  h_S4096x51 : 0 < S4096x51.numel
  shapeCasts_S4096x51_S4096x51 : S4096x51.ShapeCasts S4096x51
  inb_S51_S51_0 : ∀ a, (![0] : Fin 1 → Nat) a + S51.size a ≤ S51.size a
  h_S51 : 0 < S51.numel
  shapeCasts_S51_S1x51 : S51.ShapeCasts S1x51
  broadcasts_S1x51_S128x51 : S1x51.Broadcasts S128x51
  inb_S128x4096_S128x4096_0_0 : ∀ a, (![0, 0] : Fin 2 → Nat) a + S128x4096.size a ≤ S128x4096.size a
  h_S128x4096 : 0 < S128x4096.numel
  inb_S128x51_S128x51_0_0 : ∀ a, (![0, 0] : Fin 2 → Nat) a + S128x51.size a ≤ S128x51.size a
  h_S128x51 : 0 < S128x51.numel
  shapeCasts_S128x51_S128x51 : S128x51.ShapeCasts S128x51
  dot_S1024x512_S512x1024_S1024x1024_1_0_0_1_n_n_wf : DotDims.WF S1024x512 S512x1024 S1024x1024 [1] [0] [0] [1] [] []
  gather_S4096x512_S16384x1_S16384x512_1_0_n_n_0_1_1512_wf : GatherDims.WF S4096x512 S16384x1 S16384x512 [1] [0] [] [0] [] 1 ![1, 512]
  gather_S22801x51_S16384x1_S16384x51_1_0_n_n_0_1_151_wf : GatherDims.WF S22801x51 S16384x1 S16384x51 [1] [0] [] [0] [] 1 ![1, 51]
  dot_S128x1024_S1024x4096_S128x4096_1_0_0_1_n_n_wf : DotDims.WF S128x1024 S1024x4096 S128x4096 [1] [0] [0] [1] [] []
  dot_S128x32_S32x512_S128x512_1_0_0_1_n_n_wf : DotDims.WF S128x32 S32x512 S128x512 [1] [0] [0] [1] [] []
  dot_S128x512_S512x4096_S128x4096_1_0_0_1_n_n_wf : DotDims.WF S128x512 S512x4096 S128x4096 [1] [0] [0] [1] [] []
  dot_S128x4096_S4096x51_S128x51_1_0_0_1_n_n_wf : DotDims.WF S128x4096 S4096x51 S128x51 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .f32 = 32 ∨ (Rect.block (s := S4096x1024) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S16384x1024.size a
  hwx1_0 : ∀ i : grid1.Coords, EltTy.bits .f32 = 32 ∨ (Rect.block (s := S16384x1024) S128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x32.size a ≤ S16384x32.size a
  hwx1_1 : ∀ i : grid1.Coords, EltTy.bits .f32 = 32 ∨ (Rect.block (s := S16384x32) S128x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x4096.size a ≤ S16384x4096.size a
  hwx1_2 : ∀ i : grid1.Coords, EltTy.bits .f32 = 32 ∨ (Rect.block (s := S16384x4096) S128x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x51.size a ≤ S16384x51.size a
  hwx1_3 : ∀ i : grid1.Coords, EltTy.bits .f32 = 32 ∨ (Rect.block (s := S16384x51) S128x51.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x4096.size a ≤ S1024x4096.size a
  hwx1_4 : ∀ i : grid1.Coords, EltTy.bits .bf16 = 32 ∨ (Rect.block (s := S1024x4096) S1024x4096.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4096.size a ≤ S4096.size a
  hwx1_5 : ∀ i : grid1.Coords, EltTy.bits .f32 = 32 ∨ (Rect.block (s := S4096) S4096.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x512.size a ≤ S32x512.size a
  hwx1_6 : ∀ i : grid1.Coords, EltTy.bits .bf16 = 32 ∨ (Rect.block (s := S32x512) S32x512.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512.size a ≤ S512.size a
  hwx1_7 : ∀ i : grid1.Coords, EltTy.bits .f32 = 32 ∨ (Rect.block (s := S512) S512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512x4096.size a ≤ S512x4096.size a
  hwx1_8 : ∀ i : grid1.Coords, EltTy.bits .bf16 = 32 ∨ (Rect.block (s := S512x4096) S512x4096.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S4096.size a ≤ S4096.size a
  hwx1_9 : ∀ i : grid1.Coords, EltTy.bits .f32 = 32 ∨ (Rect.block (s := S4096) S4096.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S4096x51.size a ≤ S4096x51.size a
  hwx1_10 : ∀ i : grid1.Coords, EltTy.bits .bf16 = 32 ∨ (Rect.block (s := S4096x51) S4096x51.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S51.size a ≤ S51.size a
  hwx1_11 : ∀ i : grid1.Coords, EltTy.bits .f32 = 32 ∨ (Rect.block (s := S51) S51.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S4096x51.size a ≤ S4096x51.size a
  hwx1_12 : ∀ i : grid1.Coords, EltTy.bits .bf16 = 32 ∨ (Rect.block (s := S4096x51) S4096x51.size (cc1_transform_12 i) (hinb1_12 i)).WholeWords (EltTy.packing .bf16)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S51.size a ≤ S51.size a
  hwx1_13 : ∀ i : grid1.Coords, EltTy.bits .f32 = 32 ∨ (Rect.block (s := S51) S51.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S4096x51.size a ≤ S4096x51.size a
  hwx1_14 : ∀ i : grid1.Coords, EltTy.bits .bf16 = 32 ∨ (Rect.block (s := S4096x51) S4096x51.size (cc1_transform_14 i) (hinb1_14 i)).WholeWords (EltTy.packing .bf16)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S51.size a ≤ S51.size a
  hwx1_15 : ∀ i : grid1.Coords, EltTy.bits .f32 = 32 ∨ (Rect.block (s := S51) S51.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S128x51.size a ≤ S16384x51.size a
  hwx1_16 : ∀ i : grid1.Coords, EltTy.bits .f32 = 32 ∨ (Rect.block (s := S16384x51) S128x51.size (cc1_transform_16 i) (hinb1_16 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def gather_S4096x512_S16384x1_S16384x512_1_0_n_n_0_1_1512 : GatherDims S4096x512 S16384x1 S16384x512 where
  offsetDims := [1]
  collapsedSliceDims := [0]
  operandBatchingDims := []
  startIndicesBatchingDims := []
  startIndexMap := [0]
  indexVectorDim := 1
  sliceSizes := ![1, 512]
  wf := gather_S4096x512_S16384x1_S16384x512_1_0_n_n_0_1_1512_wf
def gather_S22801x51_S16384x1_S16384x51_1_0_n_n_0_1_151 : GatherDims S22801x51 S16384x1 S16384x51 where
  offsetDims := [1]
  collapsedSliceDims := [0]
  operandBatchingDims := []
  startIndicesBatchingDims := []
  startIndexMap := [0]
  indexVectorDim := 1
  sliceSizes := ![1, 51]
  wf := gather_S22801x51_S16384x1_S16384x51_1_0_n_n_0_1_151_wf
def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x32_S32x512_S128x512_1_0_0_1_n_n : DotDims S128x32 S32x512 S128x512 where
  lhsContracting := [1]
  rhsContracting := [0]
  lhsNonContracting := [0]
  rhsNonContracting := [1]
  lhsBatch := []
  rhsBatch := []
  wf := dot_S128x32_S32x512_S128x512_1_0_0_1_n_n_wf
def dot_S128x512_S512x4096_S128x4096_1_0_0_1_n_n : DotDims S128x512 S512x4096 S128x4096 where
  lhsContracting := [1]
  rhsContracting := [0]
  lhsNonContracting := [0]
  rhsNonContracting := [1]
  lhsBatch := []
  rhsBatch := []
  wf := dot_S128x512_S512x4096_S128x4096_1_0_0_1_n_n_wf
def dot_S128x4096_S4096x51_S128x51_1_0_0_1_n_n : DotDims S128x4096 S4096x51 S128x51 where
  lhsContracting := [1]
  rhsContracting := [0]
  lhsNonContracting := [0]
  rhsNonContracting := [1]
  lhsBatch := []
  rhsBatch := []
  wf := dot_S128x4096_S4096x51_S128x51_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S128x51.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1024x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S32x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v3) S512x4096.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg12) S4096.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v4) S4096x51.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg14) S51.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v5) S4096x51.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg16) S51.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v6) S4096x51.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_arg18) S51.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v46) S128x51.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

class Facts : Prop extends Facts₀ where

variable [Facts]
-- ==== ReferenceIdeal.lean ====
abbrev S4096x512 : Shape := ⟨2, ![4096, 512]⟩
abbrev S16384x2 : Shape := ⟨2, ![16384, 2]⟩
abbrev S16384x32 : Shape := ⟨2, ![16384, 32]⟩
abbrev S16384x4096 : Shape := ⟨2, ![16384, 4096]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S32x512 : Shape := ⟨2, ![32, 512]⟩
abbrev S512 : Shape := ⟨1, ![512]⟩
abbrev S512x4096 : Shape := ⟨2, ![512, 4096]⟩
abbrev S4096x51 : Shape := ⟨2, ![4096, 51]⟩
abbrev S51 : Shape := ⟨1, ![51]⟩
abbrev S22801x51 : Shape := ⟨2, ![22801, 51]⟩
abbrev S4096x1024 : Shape := ⟨2, ![4096, 1024]⟩
abbrev S1x1024 : Shape := ⟨2, ![1, 1024]⟩
abbrev S4096x2x512 : Shape := ⟨3, ![4096, 2, 512]⟩
abbrev S4096x1x512 : Shape := ⟨3, ![4096, 1, 512]⟩
abbrev S16384x1 : Shape := ⟨2, ![16384, 1]⟩
abbrev S16384 : Shape := ⟨1, ![16384]⟩
abbrev S_ : Shape := ⟨0, ![]⟩
abbrev S16384x512 : Shape := ⟨2, ![16384, 512]⟩
abbrev S16384x1024 : Shape := ⟨2, ![16384, 1024]⟩
abbrev S1x4096 : Shape := ⟨2, ![1, 4096]⟩
abbrev S1x512 : Shape := ⟨2, ![1, 512]⟩
abbrev S16384x51 : Shape := ⟨2, ![16384, 51]⟩
abbrev S1x51 : Shape := ⟨2, ![1, 51]⟩

abbrev nBuf : Space → Nat
  | .hbm => 114
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S16384x2, .i32⟩
  | .hbm, ⟨2, _⟩ => ⟨S16384x2, .i32⟩
  | .hbm, ⟨3, _⟩ => ⟨S16384x32, .f32⟩
  | .hbm, ⟨4, _⟩ => ⟨S16384x4096, .f32⟩
  | .hbm, ⟨5, _⟩ => ⟨S512x1024, .f32⟩
  | .hbm, ⟨6, _⟩ => ⟨S1024, .f32⟩
  | .hbm, ⟨7, _⟩ => ⟨S1024x4096, .f32⟩
  | .hbm, ⟨8, _⟩ => ⟨S4096, .f32⟩
  | .hbm, ⟨9, _⟩ => ⟨S32x512, .f32⟩
  | .hbm, ⟨10, _⟩ => ⟨S512, .f32⟩
  | .hbm, ⟨11, _⟩ => ⟨S512x4096, .f32⟩
  | .hbm, ⟨12, _⟩ => ⟨S4096, .f32⟩
  | .hbm, ⟨13, _⟩ => ⟨S4096x51, .f32⟩
  | .hbm, ⟨14, _⟩ => ⟨S51, .f32⟩
  | .hbm, ⟨15, _⟩ => ⟨S4096x51, .f32⟩
  | .hbm, ⟨16, _⟩ => ⟨S51, .f32⟩
  | .hbm, ⟨17, _⟩ => ⟨S4096x51, .f32⟩
  | .hbm, ⟨18, _⟩ => ⟨S51, .f32⟩
  | .hbm, ⟨19, _⟩ => ⟨S22801x51, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x2x512, .f32⟩
  | .hbm, ⟨25, _⟩ => ⟨S4096x1x512, .f32⟩
  | .hbm, ⟨26, _⟩ => ⟨S4096x512, .f32⟩
  | .hbm, ⟨27, _⟩ => ⟨S4096x1x512, .f32⟩
  | .hbm, ⟨28, _⟩ => ⟨S4096x512, .f32⟩
  | .hbm, ⟨29, _⟩ => ⟨S16384x1, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S16384x512, .f32⟩
  | .hbm, ⟨40, _⟩ => ⟨S16384x1, .i32⟩
  | .hbm, ⟨41, _⟩ => ⟨S16384, .i32⟩
  | .hbm, ⟨42, _⟩ => ⟨S_, .i32⟩
  | .hbm, ⟨43, _⟩ => ⟨S16384, .i32⟩
  | .hbm, ⟨44, _⟩ => ⟨S16384, .i1⟩
  | .hbm, ⟨45, _⟩ => ⟨S_, .i32⟩
  | .hbm, ⟨46, _⟩ => ⟨S16384, .i32⟩
  | .hbm, ⟨47, _⟩ => ⟨S16384, .i32⟩
  | .hbm, ⟨48, _⟩ => ⟨S16384, .i32⟩
  | .hbm, ⟨49, _⟩ => ⟨S16384x1, .i32⟩
  | .hbm, ⟨50, _⟩ => ⟨S16384x512, .f32⟩
  | .hbm, ⟨51, _⟩ => ⟨S16384x1024, .f32⟩
  | .hbm, ⟨52, _⟩ => ⟨S16384x4096, .f32⟩
  | .hbm, ⟨53, _⟩ => ⟨S1x4096, .f32⟩
  | .hbm, ⟨54, _⟩ => ⟨S16384x4096, .f32⟩
  | .hbm, ⟨55, _⟩ => ⟨S16384x4096, .f32⟩
  | .hbm, ⟨56, _⟩ => ⟨S_, .f32⟩
  | .hbm, ⟨57, _⟩ => ⟨S16384x4096, .f32⟩
  | .hbm, ⟨58, _⟩ => ⟨S16384x4096, .f32⟩
  | .hbm, ⟨59, _⟩ => ⟨S16384x512, .f32⟩
  | .hbm, ⟨60, _⟩ => ⟨S1x512, .f32⟩
  | .hbm, ⟨61, _⟩ => ⟨S16384x512, .f32⟩
  | .hbm, ⟨62, _⟩ => ⟨S16384x512, .f32⟩
  | .hbm, ⟨63, _⟩ => ⟨S_, .f32⟩
  | .hbm, ⟨64, _⟩ => ⟨S16384x512, .f32⟩
  | .hbm, ⟨65, _⟩ => ⟨S16384x512, .f32⟩
  | .hbm, ⟨66, _⟩ => ⟨S16384x4096, .f32⟩
  | .hbm, ⟨67, _⟩ => ⟨S1x4096, .f32⟩
  | .hbm, ⟨68, _⟩ => ⟨S16384x4096, .f32⟩
  | .hbm, ⟨69, _⟩ => ⟨S16384x4096, .f32⟩
  | .hbm, ⟨70, _⟩ => ⟨S_, .f32⟩
  | .hbm, ⟨71, _⟩ => ⟨S16384x4096, .f32⟩
  | .hbm, ⟨72, _⟩ => ⟨S16384x4096, .f32⟩
  | .hbm, ⟨73, _⟩ => ⟨S16384x4096, .f32⟩
  | .hbm, ⟨74, _⟩ => ⟨S16384x51, .f32⟩
  | .hbm, ⟨75, _⟩ => ⟨S1x51, .f32⟩
  | .hbm, ⟨76, _⟩ => ⟨S16384x51, .f32⟩
  | .hbm, ⟨77, _⟩ => ⟨S16384x51, .f32⟩
  | .hbm, ⟨78, _⟩ => ⟨S16384x51, .f32⟩
  | .hbm, ⟨79, _⟩ => ⟨S1x51, .f32⟩
  | .hbm, ⟨80, _⟩ => ⟨S16384x51, .f32⟩
  | .hbm, ⟨81, _⟩ => ⟨S16384x51, .f32⟩
  | .hbm, ⟨82, _⟩ => ⟨S16384x1, .i32⟩
  | .hbm, ⟨83, _⟩ => ⟨S16384, .i32⟩
  | .hbm, ⟨84, _⟩ => ⟨S_, .i32⟩
  | .hbm, ⟨85, _⟩ => ⟨S16384, .i32⟩
  | .hbm, ⟨86, _⟩ => ⟨S16384, .i32⟩
  | .hbm, ⟨87, _⟩ => ⟨S16384x1, .i32⟩
  | .hbm, ⟨88, _⟩ => ⟨S16384, .i32⟩
  | .hbm, ⟨89, _⟩ => ⟨S16384, .i32⟩
  | .hbm, ⟨90, _⟩ => ⟨S_, .i32⟩
  | .hbm, ⟨91, _⟩ => ⟨S16384, .i32⟩
  | .hbm, ⟨92, _⟩ => ⟨S16384, .i1⟩
  | .hbm, ⟨93, _⟩ => ⟨S_, .i32⟩
  | .hbm, ⟨94, _⟩ => ⟨S16384, .i32⟩
  | .hbm, ⟨95, _⟩ => ⟨S16384, .i32⟩
  | .hbm, ⟨96, _⟩ => ⟨S16384, .i32⟩
  | .hbm, ⟨97, _⟩ => ⟨S16384x1, .i32⟩
  | .hbm, ⟨98, _⟩ => ⟨S16384x51, .f32⟩
  | .hbm, ⟨99, _⟩ => ⟨S16384x51, .f32⟩
  | .hbm, ⟨100, _⟩ => ⟨S1x51, .f32⟩
  | .hbm, ⟨101, _⟩ => ⟨S16384x51, .f32⟩
  | .hbm, ⟨102, _⟩ => ⟨S16384x51, .f32⟩
  | .hbm, ⟨103, _⟩ => ⟨S16384x51, .f32⟩
  | .hbm, ⟨104, _⟩ => ⟨S16384x51, .f32⟩
  | .hbm, ⟨105, _⟩ => ⟨S16384x51, .f32⟩
  | .hbm, ⟨106, _⟩ => ⟨S16384x51, .f32⟩
  | .hbm, ⟨107, _⟩ => ⟨S_, .f32⟩
  | .hbm, ⟨108, _⟩ => ⟨S16384x51, .f32⟩
  | .hbm, ⟨109, _⟩ => ⟨S16384x51, .f32⟩
  | .hbm, ⟨110, _⟩ => ⟨S_, .f32⟩
  | .hbm, ⟨111, _⟩ => ⟨S16384x51, .f32⟩
  | .hbm, ⟨112, _⟩ => ⟨S16384x51, .f32⟩
  | .hbm, ⟨113, _⟩ => ⟨S16384x51, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_1 : Ref sig .tc := ⟨.hbm, 42, rfl⟩
abbrev main_v20 : Ref sig .tc := ⟨.hbm, 43, rfl⟩
abbrev main_v21 : Ref sig .tc := ⟨.hbm, 44, rfl⟩
abbrev main_c_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_call0_cst : Ref sig .tc := ⟨.hbm, 56, rfl⟩
abbrev main_call0_v0 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call1_cst : Ref sig .tc := ⟨.hbm, 63, rfl⟩
abbrev main_call1_v0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_call2_cst : Ref sig .tc := ⟨.hbm, 70, rfl⟩
abbrev main_call2_v0 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_3 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_4 : Ref sig .tc := ⟨.hbm, 90, rfl⟩
abbrev main_v59 : Ref sig .tc := ⟨.hbm, 91, rfl⟩
abbrev main_v60 : Ref sig .tc := ⟨.hbm, 92, rfl⟩
abbrev main_c_5 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst : Ref sig .tc := ⟨.hbm, 107, rfl⟩
abbrev main_v74 : Ref sig .tc := ⟨.hbm, 108, rfl⟩
abbrev main_v75 : Ref sig .tc := ⟨.hbm, 109, rfl⟩
abbrev main_cst_6 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  shapeCasts_S4096x1024_S4096x2x512 : S4096x1024.ShapeCasts S4096x2x512
  slices_S4096x2x512_S4096x1x512_0_0_0 : S4096x2x512.Slices ![0, 0, 0] S4096x1x512
  shapeCasts_S4096x1x512_S4096x512 : S4096x1x512.ShapeCasts S4096x512
  slices_S4096x2x512_S4096x1x512_0_1_0 : S4096x2x512.Slices ![0, 1, 0] S4096x1x512
  slices_S16384x2_S16384x1_0_0 : S16384x2.Slices ![0, 0] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  slices_S16384x2_S16384x1_0_1 : S16384x2.Slices ![0, 1] S16384x1
  concatenates_S16384x512_S16384x512_S16384x1024_d1 : Shape.Concatenates [S16384x512, S16384x512] S16384x1024 1
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S51_S1x51_1 : S51.BroadcastsInDim S1x51 (![1] : Fin 1 → Fin S1x51.rank)
  bcast_S1x51_S16384x51_0_1 : S1x51.BroadcastsInDim S16384x51 (![0, 1] : Fin 2 → Fin S16384x51.rank)
  bcast_S_S16384x51 : S_.BroadcastsInDim S16384x51 (![] : Fin 0 → Fin S16384x51.rank)
  dot_S4096x512_S512x1024_S4096x1024_1_0_0_1_n_n_wf : DotDims.WF S4096x512 S512x1024 S4096x1024 [1] [0] [0] [1] [] []
  gather_S4096x512_S16384x1_S16384x512_1_0_n_n_0_1_1512_wf : GatherDims.WF S4096x512 S16384x1 S16384x512 [1] [0] [] [0] [] 1 ![1, 512]
  dot_S16384x1024_S1024x4096_S16384x4096_1_0_0_1_n_n_wf : DotDims.WF S16384x1024 S1024x4096 S16384x4096 [1] [0] [0] [1] [] []
  dot_S16384x32_S32x512_S16384x512_1_0_0_1_n_n_wf : DotDims.WF S16384x32 S32x512 S16384x512 [1] [0] [0] [1] [] []
  dot_S16384x512_S512x4096_S16384x4096_1_0_0_1_n_n_wf : DotDims.WF S16384x512 S512x4096 S16384x4096 [1] [0] [0] [1] [] []
  dot_S16384x4096_S4096x51_S16384x51_1_0_0_1_n_n_wf : DotDims.WF S16384x4096 S4096x51 S16384x51 [1] [0] [0] [1] [] []
  gather_S22801x51_S16384x1_S16384x51_1_0_n_n_0_1_151_wf : GatherDims.WF S22801x51 S16384x1 S16384x51 [1] [0] [] [0] [] 1 ![1, 51]

variable [Facts₀]

def dot_S4096x512_S512x1024_S4096x1024_1_0_0_1_n_n : DotDims S4096x512 S512x1024 S4096x1024 where
  lhsContracting := [1]
  rhsContracting := [0]
  lhsNonContracting := [0]
  rhsNonContracting := [1]
  lhsBatch := []
  rhsBatch := []
  wf := dot_S4096x512_S512x1024_S4096x1024_1_0_0_1_n_n_wf
def gather_S4096x512_S16384x1_S16384x512_1_0_n_n_0_1_1512 : GatherDims S4096x512 S16384x1 S16384x512 where
  offsetDims := [1]
  collapsedSliceDims := [0]
  operandBatchingDims := []
  startIndicesBatchingDims := []
  startIndexMap := [0]
  indexVectorDim := 1
  sliceSizes := ![1, 512]
  wf := gather_S4096x512_S16384x1_S16384x512_1_0_n_n_0_1_1512_wf
def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf
def dot_S16384x32_S32x512_S16384x512_1_0_0_1_n_n : DotDims S16384x32 S32x512 S16384x512 where
  lhsContracting := [1]
  rhsContracting := [0]
  lhsNonContracting := [0]
  rhsNonContracting := [1]
  lhsBatch := []
  rhsBatch := []
  wf := dot_S16384x32_S32x512_S16384x512_1_0_0_1_n_n_wf
def dot_S16384x512_S512x4096_S16384x4096_1_0_0_1_n_n : DotDims S16384x512 S512x4096 S16384x4096 where
  lhsContracting := [1]
  rhsContracting := [0]
  lhsNonContracting := [0]
  rhsNonContracting := [1]
  lhsBatch := []
  rhsBatch := []
  wf := dot_S16384x512_S512x4096_S16384x4096_1_0_0_1_n_n_wf
def dot_S16384x4096_S4096x51_S16384x51_1_0_0_1_n_n : DotDims S16384x4096 S4096x51 S16384x51 where
  lhsContracting := [1]
  rhsContracting := [0]
  lhsNonContracting := [0]
  rhsNonContracting := [1]
  lhsBatch := []
  rhsBatch := []
  wf := dot_S16384x4096_S4096x51_S16384x51_1_0_0_1_n_n_wf
def gather_S22801x51_S16384x1_S16384x51_1_0_n_n_0_1_151 : GatherDims S22801x51 S16384x1 S16384x51 where
  offsetDims := [1]
  collapsedSliceDims := [0]
  operandBatchingDims := []
  startIndicesBatchingDims := []
  startIndexMap := [0]
  indexVectorDim := 1
  sliceSizes := ![1, 51]
  wf := gather_S22801x51_S16384x1_S16384x51_1_0_n_n_0_1_151_wf

class Facts : Prop extends Facts₀ where

variable [Facts]
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Spec.lean ====
/-
  The relation-score head, one row at a time, on the extended reals.

  An affine layer sends a row `x` to `j ↦ ∑ₖ xₖ · W(k, j) + bⱼ`; `relu` is the maximum with the number zero. For one
  pair of objects the scores are

    post(k) = relu(ctx · W_pc + b_pc)(k) · relu(relu(bbox · W_s1 + b_s1) · W_s2 + b_s2)(k)
    rel(j)  = (post · W_ctx + b_ctx)(j) · σ((uf · W_vis + b_vis)(j) + frq(j) + (post · W_gate + b_gate)(j))

  with σ the logistic function. The edge embedding is a single affine layer. Both are lifted to whole arrays by
  applying them to each row.
-/
import Idealize.ShloMosaic.Lib.ValueIdx
import Idealize.ShloMosaic.PureOps.Ideal.Laws

noncomputable section

open scoped BigOperators

namespace Cert.Spec

open Idealize.ShloMosaic Idealize.ShloMosaic.ValueIdx

/-- Entry `j` of an affine layer applied to the row `x`: the dot product of `x` with column `j` of `W`, plus the
    bias's entry `j`. -/
def aff {K N : Nat} (x : Fin K → EReal) (W : (⟨2, ![K, N]⟩ : Shape).Idx → EReal) (b : (⟨1, ![N]⟩ : Shape).Idx → EReal)
    (j : Fin N) : EReal :=
  (∑ k : Fin K, x k * W (ix2 k j)) + b (ix1 j)

/-- The maximum with zero (zero written as the all-zero f32 pattern, which is what both programs compare against). -/
def relu (x : EReal) : EReal := max x (Ideal.ofBits .f32 0x00000000#32)

/-- Entry `k` of the gated context feature of one pair: the context layer's rectified output times the spatial
    branch's (two rectified affine layers on the box features). -/
def post (ctx : Fin 1024 → EReal) (bbox : Fin 32 → EReal)
    (Wpc : (⟨2, ![1024, 4096]⟩ : Shape).Idx → EReal) (bpc : (⟨1, ![4096]⟩ : Shape).Idx → EReal)
    (Ws1 : (⟨2, ![32, 512]⟩ : Shape).Idx → EReal) (bs1 : (⟨1, ![512]⟩ : Shape).Idx → EReal)
    (Ws2 : (⟨2, ![512, 4096]⟩ : Shape).Idx → EReal) (bs2 : (⟨1, ![4096]⟩ : Shape).Idx → EReal)
    (k : Fin 4096) : EReal :=
  relu (aff ctx Wpc bpc k) * relu (aff (fun l => relu (aff bbox Ws1 bs1 l)) Ws2 bs2 k)

/-- Score `j` of one pair: the context logit times the logistic gate of the visual logit, the frequency bias and the
    gate logit, summed in that order. -/
def rel (ctx : Fin 1024 → EReal) (bbox : Fin 32 → EReal) (uf : Fin 4096 → EReal) (frq : EReal)
    (Wpc : (⟨2, ![1024, 4096]⟩ : Shape).Idx → EReal) (bpc : (⟨1, ![4096]⟩ : Shape).Idx → EReal)
    (Ws1 : (⟨2, ![32, 512]⟩ : Shape).Idx → EReal) (bs1 : (⟨1, ![512]⟩ : Shape).Idx → EReal)
    (Ws2 : (⟨2, ![512, 4096]⟩ : Shape).Idx → EReal) (bs2 : (⟨1, ![4096]⟩ : Shape).Idx → EReal)
    (Wctx : (⟨2, ![4096, 51]⟩ : Shape).Idx → EReal) (bctx : (⟨1, ![51]⟩ : Shape).Idx → EReal)
    (Wvis : (⟨2, ![4096, 51]⟩ : Shape).Idx → EReal) (bvis : (⟨1, ![51]⟩ : Shape).Idx → EReal)
    (Wgate : (⟨2, ![4096, 51]⟩ : Shape).Idx → EReal) (bgate : (⟨1, ![51]⟩ : Shape).Idx → EReal)
    (j : Fin 51) : EReal :=
  aff (post ctx bbox Wpc bpc Ws1 bs1 Ws2 bs2) Wctx bctx j
    * Ideal.logistic ((aff uf Wvis bvis j + frq) + aff (post ctx bbox Wpc bpc Ws1 bs1 Ws2 bs2) Wgate bgate j)

/-- The edge embedding of every object: one affine layer applied to each row of `X`. -/
def embAll (X : (⟨2, ![4096, 512]⟩ : Shape).Idx → EReal) (W : (⟨2, ![512, 1024]⟩ : Shape).Idx → EReal)
    (b : (⟨1, ![1024]⟩ : Shape).Idx → EReal) : (⟨2, ![4096, 1024]⟩ : Shape).Idx → EReal :=
  fun i => aff (fun k => X (ix2 (i 0) k)) W b (i 1)

/-- The scores of every pair: `rel` applied to row `i 0` of the per-pair inputs. -/
def relAll (CTX : (⟨2, ![16384, 1024]⟩ : Shape).Idx → EReal) (BBOX : (⟨2, ![16384, 32]⟩ : Shape).Idx → EReal)
    (UF : (⟨2, ![16384, 4096]⟩ : Shape).Idx → EReal) (FRQ : (⟨2, ![16384, 51]⟩ : Shape).Idx → EReal)
    (Wpc : (⟨2, ![1024, 4096]⟩ : Shape).Idx → EReal) (bpc : (⟨1, ![4096]⟩ : Shape).Idx → EReal)
    (Ws1 : (⟨2, ![32, 512]⟩ : Shape).Idx → EReal) (bs1 : (⟨1, ![512]⟩ : Shape).Idx → EReal)
    (Ws2 : (⟨2, ![512, 4096]⟩ : Shape).Idx → EReal) (bs2 : (⟨1, ![4096]⟩ : Shape).Idx → EReal)
    (Wctx : (⟨2, ![4096, 51]⟩ : Shape).Idx → EReal) (bctx : (⟨1, ![51]⟩ : Shape).Idx → EReal)
    (Wvis : (⟨2, ![4096, 51]⟩ : Shape).Idx → EReal) (bvis : (⟨1, ![51]⟩ : Shape).Idx → EReal)
    (Wgate : (⟨2, ![4096, 51]⟩ : Shape).Idx → EReal) (bgate : (⟨1, ![51]⟩ : Shape).Idx → EReal) :
    (⟨2, ![16384, 51]⟩ : Shape).Idx → EReal :=
  fun i => rel (fun l => CTX (ix2 (i 0) l)) (fun q => BBOX (ix2 (i 0) q)) (fun k => UF (ix2 (i 0) k)) (FRQ (ix2 (i 0) (i 1)))
    Wpc bpc Ws1 bs1 Ws2 bs2 Wctx bctx Wvis bvis Wgate bgate (i 1)

end Cert.Spec

end
-- ==== Proof.Layer.lean ====
/-
  One affine layer read at an entry, as the kernel spells it and as the host spells it, and the rectifier in both
  spellings: each is the row function of the specification (`Spec.aff`, `Spec.relu`) at that entry. Nothing here
  depends on a program; the dimension-numbers record enters only through its axis lists.
-/
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws
import proofs.«166788_j39986145525795_1_alg».proof.Proof.LibDot
import proofs.«166788_j39986145525795_1_alg».proof.Proof.Spec

noncomputable section

open scoped BigOperators

namespace Cert.Layer

open Idealize.ShloMosaic Idealize.ShloMosaic.ValueIdx Cert.Spec

/-- A bias vector laid along every row by the kernel (cast to one row, then broadcast down the rows), read at an
    entry: the bias at the column. -/
theorem kernel_bias_apply {M N : Nat} (bv : FVec Ideal ⟨1, ![N]⟩ .f32)
    (h1 : (⟨1, ![N]⟩ : Shape).ShapeCasts ⟨2, ![1, N]⟩) (hb : (⟨2, ![1, N]⟩ : Shape).Broadcasts ⟨2, ![M, N]⟩)
    (a : Fin M) (b : Fin N) :
    broadcastTo ⟨2, ![M, N]⟩ (shapeCast ⟨2, ![1, N]⟩ bv h1) hb (ix2 a b) = bv (ix1 b) := by
  rw [broadcastTo_1b_ab_apply, shapeCast_a_1a_apply]

/-- The same bias laid along every row by the host (two broadcasts along named axes), read at an entry. -/
theorem host_bias_apply {M N : Nat} (bv : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (a : Fin M) (b : Fin N) :
    broadcastInDim ⟨2, ![M, N]⟩ ![0, 1] h2 (broadcastInDim ⟨2, ![1, N]⟩ ![1] h1 bv) (ix2 a b) = bv (ix1 b) := by
  rw [broadcastInDim_oneRow_apply]
  refine broadcastInDim_apply ![1] h1 bv (ix2 (0 : Fin 1) b) (ix1 b) ?_
  intro ax
  match ax with
  | ⟨0, _⟩ =>
    show b.val = if N = 1 then 0 else b.val
    split
    · have := b.isLt; omega
    · rfl

/-- The host's product of an `M × K` by a `K × N` operand, read at an entry: the sum over the contracted
    coordinate. -/
theorem dotGeneral_10_apply {M K N : Nat} {φ₁ φ₂ : FTy} (d : DotDims ⟨2, ![M, K]⟩ ⟨2, ![K, N]⟩ ⟨2, ![M, N]⟩)
    (prec : Option ContractPrecision) (A : FVec Ideal ⟨2, ![M, K]⟩ φ₁) (B : FVec Ideal ⟨2, ![K, N]⟩ φ₂)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) :
    Host.dotGeneral (F := Ideal) d prec A B (ix2 a b) = ∑ c : Fin K, A (ix2 a c) * B (ix2 c b) := by
  rw [← matmul_zero_eq_dotGeneral]
  exact Cert.LibDot.matmul_10_zero_apply d hlc hrc hln hrn hlb hrb prec A B a b

/-- An affine layer as the kernel computes it — a matrix product into the zero accumulator plus the bias laid along
    the rows — read at an entry. -/
theorem kernel_layer {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (W : FVec Ideal ⟨2, ![K, N]⟩ φ₂)
    (bv : FVec Ideal ⟨1, ![N]⟩ .f32)
    (h1 : (⟨1, ![N]⟩ : Shape).ShapeCasts ⟨2, ![1, N]⟩) (hb : (⟨2, ![1, N]⟩ : Shape).Broadcasts ⟨2, ![M, N]⟩)
    (a : Fin M) (b : Fin N) :
    addf (matmul (F := Ideal) d prec A W (constant ⟨2, ![M, N]⟩ .f32 0x00000000#32))
        (broadcastTo ⟨2, ![M, N]⟩ (shapeCast ⟨2, ![1, N]⟩ bv h1) hb) (ix2 a b)
      = aff (fun k => A (ix2 a k)) W bv b := by
  rw [addf_apply, Cert.LibDot.matmul_10_zero_apply d hlc hrc hln hrn hlb hrb, kernel_bias_apply]
  rfl

/-- The same layer as the host computes it. -/
theorem host_layer {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (W : FVec Ideal ⟨2, ![K, N]⟩ φ₂)
    (bv : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (a : Fin M) (b : Fin N) :
    addf (Host.dotGeneral (F := Ideal) d prec A W)
        (broadcastInDim ⟨2, ![M, N]⟩ ![0, 1] h2 (broadcastInDim ⟨2, ![1, N]⟩ ![1] h1 bv)) (ix2 a b)
      = aff (fun k => A (ix2 a k)) W bv b := by
  rw [addf_apply, dotGeneral_10_apply d prec A W hlc hrc hln hrn hlb hrb, host_bias_apply]
  rfl

/-- The kernel's rectifier (maximum with a splat of the zero pattern), read at an entry. -/
theorem kernel_relu_apply {s : Shape} (v : FVec Ideal s .f32) (i : s.Idx) :
    maximumf v (broadcast s (Scalar.ofBits (F := Ideal) .f32 0x00000000#32)) i = relu (v i) := rfl

/-- The host's rectifier (maximum with a broadcast scalar zero constant), read at an entry. -/
theorem host_relu_apply {s : Shape} (v : FVec Ideal s .f32) (h : (⟨0, ![]⟩ : Shape).BroadcastsInDim s ![]) (i : s.Idx) :
    maximumf v (broadcastInDim s ![] h (constant (F := Ideal) ⟨0, ![]⟩ .f32 0x00000000#32)) i = relu (v i) := by
  rw [maximumf_apply, broadcastInDim_scalar_apply]
  rfl

end Cert.Layer

end
-- ==== Proof.Region0.lean ====
/-
  The first launch (the edge embedding), as a value: the array the launch leaves behind is one affine layer applied to
  every row of its first operand.

  The grid has 4 points; point `t` works on rows `1024 t … 1024 t + 1023` of the input and writes the same rows of
  the output, while the weight matrix and the bias are read whole at every point. The body stores, at row `p` and
  column `j` of its block, the dot product of row `p` of the input block with column `j` of the weights, plus the
  bias at `j`; that is entry `(1024 t + p, j)` of the whole-array function. The 4 row blocks cover the array.
-/
import proofs.«166788_j39986145525795_1_alg».proof.Proof.Gen.KernelIdeal.Frame
import proofs.«166788_j39986145525795_1_alg».proof.Proof.Layer
import Idealize.ShloMosaic.Lib.Pipeline.Value

set_option maxRecDepth 16384

noncomputable section

namespace Cert.KernelIdeal.Region0

open Idealize.ShloMosaic Idealize.ShloMosaic.TcCoe Idealize.ShloMosaic.ValueIdx
open Cert.KernelIdeal Cert.KernelIdeal.Gen Cert.Spec
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's stored value at row `p`, column `j` of its block: the affine layer applied to row `p` of the loaded
    input block. -/
theorem pay_apply (x0 : Vec Ideal S1024x512 .f32) (x1 : Vec Ideal S512x1024 .bf16) (x2 : Vec Ideal S1024 .f32)
    (p : Fin 1024) (j : Fin 1024) :
    k0_pay1 x0 x1 x2 (ix2 p j) = aff (fun k => x0 (ix2 p k)) x1 x2 j := by
  unfold k0_pay1
  rw [shapeCast_self]
  exact Layer.kernel_layer dot_S1024x512_S512x1024_S1024x1024_1_0_0_1_n_n rfl rfl rfl rfl rfl rfl none _ x1 x2 _ _ p j

/-- Where the windows sit at each grid point: the input and output row blocks at block row `t`, the weights and the
    bias at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is block `t` of the whole-array embedding of the arrays the launch finds. -/
theorem flushed_eq (c : Dev nD) (t : Fin cfg0.N) :
    (dat0 V c).flushed 3 t
      = ((cfg0.win 3).blk t).view.read (Elt Ideal) (embAll (V c main_arg0) (V c main_v0) (V c main_arg6)) := by
  show (cfg0.win 3).cut (grid0.coords t) ((dat0 V c).after 3 t) = _
  rw [after0_3]
  unfold out0_3
  rw [View.canon_unit_zero hz2]
  simp only [View.ld_unit_zero (S := S1024x512) hz2, View.ld_unit_zero (S := S512x1024) hz2,
    View.ld_unit_zero (S := S1024) hz1]
  obtain ⟨e00, e01, e10, e11, e20, e30, e31⟩ := idx_facts t
  funext y
  obtain ⟨p, j, rfl⟩ : ∃ (p : Fin 1024) (j : Fin 1024), y = ix2 p j := ⟨y 0, y 1, eq_ix2 y⟩
  refine (pay_apply (iblk0 V c 0 t) (iblk0 V c 1 t) (iblk0 V c 2 t) p j).trans ?_
  show aff (fun k => V c main_arg0 (((cfg0.win 0).blk t).view.emb (ix2 p k)))
      (fun i => V c main_v0 (((cfg0.win 1).blk t).view.emb i))
      (fun i => V c main_arg6 (((cfg0.win 2).blk t).view.emb i)) j
    = aff (fun k => V c main_arg0 (ix2 ((((cfg0.win 3).blk t).view.emb (ix2 p j)) 0) k)) (V c main_v0) (V c main_arg6)
      ((((cfg0.win 3).blk t).view.emb (ix2 p j)) 1)
  have h0 : ∀ k : Fin 512, ((cfg0.win 0).blk t).view.emb (ix2 p k)
      = ix2 ((((cfg0.win 3).blk t).view.emb (ix2 p j)) 0) k := fun k => by
    funext a; apply Fin.ext
    match a with
    | ⟨0, _⟩ => show win0_0.index t (0 : Fin 2) * 1024 + 1 * p.val = win0_3.index t (0 : Fin 2) * 1024 + 1 * p.val; omega
    | ⟨1, _⟩ => show win0_0.index t (1 : Fin 2) * 512 + 1 * k.val = k.val; omega
  have h1 : ∀ i : S512x1024.Idx, ((cfg0.win 1).blk t).view.emb i = i := fun i => by
    funext a; apply Fin.ext
    match a with
    | ⟨0, _⟩ => show win0_1.index t (0 : Fin 2) * 512 + 1 * (i 0).val = (i 0).val; omega
    | ⟨1, _⟩ => show win0_1.index t (1 : Fin 2) * 1024 + 1 * (i 1).val = (i 1).val; omega
  have h2 : ∀ i : S1024.Idx, ((cfg0.win 2).blk t).view.emb i = i := fun i => by
    funext a; apply Fin.ext
    match a with
    | ⟨0, _⟩ => show win0_2.index t (0 : Fin 1) * 1024 + 1 * (i 0).val = (i 0).val; omega
  have hj : (((cfg0.win 3).blk t).view.emb (ix2 p j)) 1 = j :=
    Fin.ext (by show win0_3.index t (1 : Fin 2) * 1024 + 1 * j.val = j.val; omega)
  simp only [h0, h1, h2]
  rw [hj]
  rfl

/-- An index of the output array lies in point `t`'s block exactly when each coordinate lies in the block's range. -/
theorem mem_blk (t : Fin cfg0.N) (i : S4096x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v7).slice (win0_3.rect t)).set ↔ _
  rw [View.set_slice_whole, Rect.mem_set_unit]
  exact Iff.rfl

/-- Every row of the output array belongs to the block of the point numbered by the row divided by 1024. -/
theorem cover (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  have hN : cfg0.N = 4 := N_0
  refine ⟨⟨(i 0).val / 1024, by rw [hN]; omega⟩, flush0_3 _, ?_⟩
  obtain ⟨-, -, -, -, -, e30, e31⟩ := idx_facts ⟨(i 0).val / 1024, by rw [hN]; omega⟩
  rw [mem_blk]
  intro a
  match a with
  | ⟨0, _⟩ =>
    show win0_3.index _ (0 : Fin 2) * 1024 ≤ (i 0).val ∧ (i 0).val < win0_3.index _ (0 : Fin 2) * 1024 + 1024
    rw [e30]
    show (i 0).val / 1024 * 1024 ≤ (i 0).val ∧ (i 0).val < (i 0).val / 1024 * 1024 + 1024
    omega
  | ⟨1, _⟩ =>
    show win0_3.index _ (1 : Fin 2) * 1024 ≤ (i 1).val ∧ (i 1).val < win0_3.index _ (1 : Fin 2) * 1024 + 1024
    rw [e31]
    omega

/-- The array the first launch leaves: the embedding of the arrays it found. -/
theorem final (c : Dev nD) :
    (dat0 V c).arrAt 3 cfg0.N = embAll (V c main_arg0) (V c main_v0) (V c main_arg6) :=
  (dat0 V c).arrAt_eq_of_cover 3 _ (fun t _ => flushed_eq V c t) cover

end Cert.KernelIdeal.Region0

end
-- ==== Proof.Region1.lean ====
/-
  The second launch (the fused scoring head), as a value: the array it leaves behind holds, at row `r` and column
  `j`, the score `Spec.rel` of pair `r` at class `j`.

  The grid has 128 points; point `t` works on rows `128 t … 128 t + 127` of the four per-pair inputs (context rows,
  box features, union features, frequency rows) and writes the same rows of the output; the twelve weight and bias
  arrays are read whole at every point. Row `p` of the body's stored block depends only on row `p` of each per-pair
  block: every layer is an affine layer of that row, the rectifiers act entry by entry, and the gate is the logistic
  function of a sum of three entries. The 128 row blocks cover the array.
-/
import proofs.«166788_j39986145525795_1_alg».proof.Proof.Gen.KernelIdeal.Frame
import proofs.«166788_j39986145525795_1_alg».proof.Proof.Layer
import Idealize.ShloMosaic.Lib.Pipeline.Value

set_option maxRecDepth 16384

noncomputable section

namespace Cert.KernelIdeal.Region1

open Idealize.ShloMosaic Idealize.ShloMosaic.TcCoe Idealize.ShloMosaic.ValueIdx
open Cert.KernelIdeal Cert.KernelIdeal.Gen Cert.Spec
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The logistic function applied to a vector, read at an entry. -/
theorem logistic_apply {s : Shape} {φ : FTy} (a : FVec Ideal s φ) (i : s.Idx) : logistic a i = Ideal.logistic (a i) := rfl

/-- Entry `(p, k)` of the gated context feature the body computes from its loaded blocks: the specification's, on
    row `p` of the context block and of the box block. -/
theorem pay2_apply (x0 : Vec Ideal S128x1024 .f32) (x4 : Vec Ideal S1024x4096 .bf16) (x5 : Vec Ideal S4096 .f32)
    (x1 : Vec Ideal S128x32 .f32) (x6 : Vec Ideal S32x512 .bf16) (x7 : Vec Ideal S512 .f32)
    (x8 : Vec Ideal S512x4096 .bf16) (x9 : Vec Ideal S4096 .f32) (p : Fin 128) (k : Fin 4096) :
    k1_pay2 x0 x4 x5 x1 x6 x7 x8 x9 (ix2 p k)
      = Spec.post (fun l => x0 (ix2 p l)) (fun q => x1 (ix2 p q)) x4 x5 x6 x7 x8 x9 k := by
  unfold k1_pay2 Spec.post
  simp only [shapeCast_self]
  rw [truncf_apply, mulf_apply, Layer.kernel_relu_apply, Layer.kernel_relu_apply,
    Layer.kernel_layer dot_S128x1024_S1024x4096_S128x4096_1_0_0_1_n_n rfl rfl rfl rfl rfl rfl,
    Layer.kernel_layer dot_S128x512_S512x4096_S128x4096_1_0_0_1_n_n rfl rfl rfl rfl rfl rfl]
  refine congrArg₂ (· * ·) rfl (congrArg relu (congrArg (fun f => aff f x8 x9 k) (funext fun l => ?_)))
  rw [truncf_apply, Layer.kernel_relu_apply,
    Layer.kernel_layer dot_S128x32_S32x512_S128x512_1_0_0_1_n_n rfl rfl rfl rfl rfl rfl]
  rfl

/-- Entry `(p, j)` of the block the body stores: the specification's score of the pair in row `p` of the per-pair
    blocks. -/
theorem pay1_apply (x0 : Vec Ideal S128x1024 .f32) (x1 : Vec Ideal S128x32 .f32) (x2 : Vec Ideal S128x4096 .f32)
    (x3 : Vec Ideal S128x51 .f32) (x4 : Vec Ideal S1024x4096 .bf16) (x5 : Vec Ideal S4096 .f32)
    (x6 : Vec Ideal S32x512 .bf16) (x7 : Vec Ideal S512 .f32) (x8 : Vec Ideal S512x4096 .bf16) (x9 : Vec Ideal S4096 .f32)
    (x10 : Vec Ideal S4096x51 .bf16) (x11 : Vec Ideal S51 .f32) (x12 : Vec Ideal S4096x51 .bf16) (x13 : Vec Ideal S51 .f32)
    (x14 : Vec Ideal S4096x51 .bf16) (x15 : Vec Ideal S51 .f32) (p : Fin 128) (j : Fin 51) :
    k1_pay1 (k1_pay2 x0 x4 x5 x1 x6 x7 x8 x9) (k1_pay3 x10) (constant S128x51 .f32 0x00000000#32) x11 x2 x12 x13 x14
        x15 x3 (ix2 p j)
      = rel (fun l => x0 (ix2 p l)) (fun q => x1 (ix2 p q)) (fun k => x2 (ix2 p k)) (x3 (ix2 p j))
          x4 x5 x6 x7 x8 x9 x10 x11 x12 x13 x14 x15 j := by
  have hp : (fun k => k1_pay2 x0 x4 x5 x1 x6 x7 x8 x9 (ix2 p k))
      = Spec.post (fun l => x0 (ix2 p l)) (fun q => x1 (ix2 p q)) x4 x5 x6 x7 x8 x9 :=
    funext fun k => pay2_apply x0 x4 x5 x1 x6 x7 x8 x9 p k
  have hctx := Layer.kernel_layer (φ₁ := .bf16) (φ₂ := .bf16) dot_S128x4096_S4096x51_S128x51_1_0_0_1_n_n rfl rfl rfl rfl rfl rfl none
    (k1_pay2 x0 x4 x5 x1 x6 x7 x8 x9) x10 x11 shapeCasts_S51_S1x51 broadcasts_S1x51_S128x51 p j
  have hvis := Layer.kernel_layer (φ₁ := .bf16) (φ₂ := .bf16) dot_S128x4096_S4096x51_S128x51_1_0_0_1_n_n rfl rfl rfl rfl rfl rfl none
    (truncf .bf16 x2 bitsLt_bf16_f32) x12 x13 shapeCasts_S51_S1x51 broadcasts_S1x51_S128x51 p j
  have hgate := Layer.kernel_layer (φ₁ := .bf16) (φ₂ := .bf16) dot_S128x4096_S4096x51_S128x51_1_0_0_1_n_n rfl rfl rfl rfl rfl rfl none
    (k1_pay2 x0 x4 x5 x1 x6 x7 x8 x9) x14 x15 shapeCasts_S51_S1x51 broadcasts_S1x51_S128x51 p j
  unfold k1_pay1 k1_pay3 rel
  simp only [shapeCast_self]
  rw [mulf_apply, hctx, hp, logistic_apply, addf_apply, addf_apply, hvis, hgate, hp]
  rfl

/-- Where the windows sit at each grid point: the four per-pair inputs and the output at block row `t`, every weight
    and bias at block 0. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = 0
    ∧ win1_4.index t (1 : Fin 2) = 0
    ∧ win1_5.index t (0 : Fin 1) = 0
    ∧ win1_6.index t (0 : Fin 2) = 0
    ∧ win1_6.index t (1 : Fin 2) = 0
    ∧ win1_7.index t (0 : Fin 1) = 0
    ∧ win1_8.index t (0 : Fin 2) = 0
    ∧ win1_8.index t (1 : Fin 2) = 0
    ∧ win1_9.index t (0 : Fin 1) = 0
    ∧ win1_10.index t (0 : Fin 2) = 0
    ∧ win1_10.index t (1 : Fin 2) = 0
    ∧ win1_11.index t (0 : Fin 1) = 0
    ∧ win1_12.index t (0 : Fin 2) = 0
    ∧ win1_12.index t (1 : Fin 2) = 0
    ∧ win1_13.index t (0 : Fin 1) = 0
    ∧ win1_14.index t (0 : Fin 2) = 0
    ∧ win1_14.index t (1 : Fin 2) = 0
    ∧ win1_15.index t (0 : Fin 1) = 0
    ∧ win1_16.index t (0 : Fin 2) = t.val
    ∧ win1_16.index t (1 : Fin 2) = 0 :=
  (by decide +kernel : ∀ t : Fin grid1.N, _)

/-- Equal inputs give equal scores. -/
theorem rel_congr {ctx ctx' : Fin 1024 → EReal}
    {bbox bbox' : Fin 32 → EReal}
    {uf uf' : Fin 4096 → EReal}
    {frq frq' : EReal}
    {Wpc Wpc' : (⟨2, ![1024, 4096]⟩ : Shape).Idx → EReal}
    {bpc bpc' : (⟨1, ![4096]⟩ : Shape).Idx → EReal}
    {Ws1 Ws1' : (⟨2, ![32, 512]⟩ : Shape).Idx → EReal}
    {bs1 bs1' : (⟨1, ![512]⟩ : Shape).Idx → EReal}
    {Ws2 Ws2' : (⟨2, ![512, 4096]⟩ : Shape).Idx → EReal}
    {bs2 bs2' : (⟨1, ![4096]⟩ : Shape).Idx → EReal}
    {Wctx Wctx' : (⟨2, ![4096, 51]⟩ : Shape).Idx → EReal}
    {bctx bctx' : (⟨1, ![51]⟩ : Shape).Idx → EReal}
    {Wvis Wvis' : (⟨2, ![4096, 51]⟩ : Shape).Idx → EReal}
    {bvis bvis' : (⟨1, ![51]⟩ : Shape).Idx → EReal}
    {Wgate Wgate' : (⟨2, ![4096, 51]⟩ : Shape).Idx → EReal}
    {bgate bgate' : (⟨1, ![51]⟩ : Shape).Idx → EReal} {j j' : Fin 51}
    (h0 : ctx = ctx') (h1 : bbox = bbox') (h2 : uf = uf') (h3 : frq = frq') (h4 : Wpc = Wpc') (h5 : bpc = bpc') (h6 : Ws1 = Ws1') (h7 : bs1 = bs1') (h8 : Ws2 = Ws2') (h9 : bs2 = bs2') (h10 : Wctx = Wctx') (h11 : bctx = bctx') (h12 : Wvis = Wvis') (h13 : bvis = bvis') (h14 : Wgate = Wgate') (h15 : bgate = bgate') (hj : j = j') :
    rel ctx bbox uf frq Wpc bpc Ws1 bs1 Ws2 bs2 Wctx bctx Wvis bvis Wgate bgate j = rel ctx' bbox' uf' frq' Wpc' bpc' Ws1' bs1' Ws2' bs2' Wctx' bctx' Wvis' bvis' Wgate' bgate' j' := by
  subst h0 h1 h2 h3 h4 h5 h6 h7 h8 h9 h10 h11 h12 h13 h14 h15 hj
  rfl

set_option maxHeartbeats 4000000 in
/-- What point `t` writes back is block `t` of the whole-array scores of the arrays the launch finds. -/
theorem flushed_eq (c : Dev nD) (t : Fin cfg1.N) :
    (dat1 V c).flushed 16 t
      = ((cfg1.win 16).blk t).view.read (Elt Ideal) (relAll (V c main_v31) (V c main_arg3) (V c main_arg4) (V c main_v45) (V c main_v1) (V c main_arg8) (V c main_v2) (V c main_arg10) (V c main_v3) (V c main_arg12) (V c main_v4) (V c main_arg14) (V c main_v5) (V c main_arg16) (V c main_v6) (V c main_arg18)) := by
  show (cfg1.win 16).cut (grid1.coords t) ((dat1 V c).after 16 t) = _
  rw [after1_16]
  unfold out1_16
  rw [View.canon_unit_zero hz2]
  simp only [View.ld_unit_zero (S := S128x1024) hz2, View.ld_unit_zero (S := S1024x4096) hz2, View.ld_unit_zero (S := S128x32) hz2, View.ld_unit_zero (S := S32x512) hz2, View.ld_unit_zero (S := S512x4096) hz2, View.ld_unit_zero (S := S4096x51) hz2, View.ld_unit_zero (S := S128x4096) hz2, View.ld_unit_zero (S := S128x51) hz2,
    View.ld_unit_zero (S := S4096) hz1, View.ld_unit_zero (S := S512) hz1, View.ld_unit_zero (S := S51) hz1]
  obtain ⟨e0_0, e0_1, e1_0, e1_1, e2_0, e2_1, e3_0, e3_1, e4_0, e4_1, e5_0, e6_0, e6_1, e7_0, e8_0, e8_1, e9_0, e10_0, e10_1, e11_0, e12_0, e12_1, e13_0, e14_0, e14_1, e15_0, e16_0, e16_1⟩ := idx_facts t
  funext y
  obtain ⟨p, j, rfl⟩ : ∃ (p : Fin 128) (j : Fin 51), y = ix2 p j := ⟨y 0, y 1, eq_ix2 y⟩
  have h0 : ∀ k : Fin 1024, ((cfg1.win 0).blk t).view.emb (ix2 p k) = ix2 ((((cfg1.win 16).blk t).view.emb (ix2 p j)) 0) k := fun k => by
    funext a; apply Fin.ext
    match a with
    | ⟨0, _⟩ => show win1_0.index t (0 : Fin 2) * 128 + 1 * p.val = win1_16.index t (0 : Fin 2) * 128 + 1 * p.val; omega
    | ⟨1, _⟩ => show win1_0.index t (1 : Fin 2) * 1024 + 1 * k.val = k.val; omega
  have h1 : ∀ k : Fin 32, ((cfg1.win 1).blk t).view.emb (ix2 p k) = ix2 ((((cfg1.win 16).blk t).view.emb (ix2 p j)) 0) k := fun k => by
    funext a; apply Fin.ext
    match a with
    | ⟨0, _⟩ => show win1_1.index t (0 : Fin 2) * 128 + 1 * p.val = win1_16.index t (0 : Fin 2) * 128 + 1 * p.val; omega
    | ⟨1, _⟩ => show win1_1.index t (1 : Fin 2) * 32 + 1 * k.val = k.val; omega
  have h2 : ∀ k : Fin 4096, ((cfg1.win 2).blk t).view.emb (ix2 p k) = ix2 ((((cfg1.win 16).blk t).view.emb (ix2 p j)) 0) k := fun k => by
    funext a; apply Fin.ext
    match a with
    | ⟨0, _⟩ => show win1_2.index t (0 : Fin 2) * 128 + 1 * p.val = win1_16.index t (0 : Fin 2) * 128 + 1 * p.val; omega
    | ⟨1, _⟩ => show win1_2.index t (1 : Fin 2) * 4096 + 1 * k.val = k.val; omega
  have h3 : ((cfg1.win 3).blk t).view.emb (ix2 p j) = ix2 ((((cfg1.win 16).blk t).view.emb (ix2 p j)) 0) ((((cfg1.win 16).blk t).view.emb (ix2 p j)) 1) := by
    funext a; apply Fin.ext
    match a with
    | ⟨0, _⟩ => show win1_3.index t (0 : Fin 2) * 128 + 1 * p.val = win1_16.index t (0 : Fin 2) * 128 + 1 * p.val; omega
    | ⟨1, _⟩ => show win1_3.index t (1 : Fin 2) * 51 + 1 * j.val = win1_16.index t (1 : Fin 2) * 51 + 1 * j.val; omega
  have h4 : ∀ i : S1024x4096.Idx, ((cfg1.win 4).blk t).view.emb i = i := fun i => by
    funext a; apply Fin.ext
    match a with
    | ⟨0, _⟩ => show win1_4.index t (0 : Fin 2) * 1024 + 1 * (i 0).val = (i 0).val; omega
    | ⟨1, _⟩ => show win1_4.index t (1 : Fin 2) * 4096 + 1 * (i 1).val = (i 1).val; omega
  have h5 : ∀ i : S4096.Idx, ((cfg1.win 5).blk t).view.emb i = i := fun i => by
    funext a; apply Fin.ext
    match a with
    | ⟨0, _⟩ => show win1_5.index t (0 : Fin 1) * 4096 + 1 * (i 0).val = (i 0).val; omega
  have h6 : ∀ i : S32x512.Idx, ((cfg1.win 6).blk t).view.emb i = i := fun i => by
    funext a; apply Fin.ext
    match a with
    | ⟨0, _⟩ => show win1_6.index t (0 : Fin 2) * 32 + 1 * (i 0).val = (i 0).val; omega
    | ⟨1, _⟩ => show win1_6.index t (1 : Fin 2) * 512 + 1 * (i 1).val = (i 1).val; omega
  have h7 : ∀ i : S512.Idx, ((cfg1.win 7).blk t).view.emb i = i := fun i => by
    funext a; apply Fin.ext
    match a with
    | ⟨0, _⟩ => show win1_7.index t (0 : Fin 1) * 512 + 1 * (i 0).val = (i 0).val; omega
  have h8 : ∀ i : S512x4096.Idx, ((cfg1.win 8).blk t).view.emb i = i := fun i => by
    funext a; apply Fin.ext
    match a with
    | ⟨0, _⟩ => show win1_8.index t (0 : Fin 2) * 512 + 1 * (i 0).val = (i 0).val; omega
    | ⟨1, _⟩ => show win1_8.index t (1 : Fin 2) * 4096 + 1 * (i 1).val = (i 1).val; omega
  have h9 : ∀ i : S4096.Idx, ((cfg1.win 9).blk t).view.emb i = i := fun i => by
    funext a; apply Fin.ext
    match a with
    | ⟨0, _⟩ => show win1_9.index t (0 : Fin 1) * 4096 + 1 * (i 0).val = (i 0).val; omega
  have h10 : ∀ i : S4096x51.Idx, ((cfg1.win 10).blk t).view.emb i = i := fun i => by
    funext a; apply Fin.ext
    match a with
    | ⟨0, _⟩ => show win1_10.index t (0 : Fin 2) * 4096 + 1 * (i 0).val = (i 0).val; omega
    | ⟨1, _⟩ => show win1_10.index t (1 : Fin 2) * 51 + 1 * (i 1).val = (i 1).val; omega
  have h11 : ∀ i : S51.Idx, ((cfg1.win 11).blk t).view.emb i = i := fun i => by
    funext a; apply Fin.ext
    match a with
    | ⟨0, _⟩ => show win1_11.index t (0 : Fin 1) * 51 + 1 * (i 0).val = (i 0).val; omega
  have h12 : ∀ i : S4096x51.Idx, ((cfg1.win 12).blk t).view.emb i = i := fun i => by
    funext a; apply Fin.ext
    match a with
    | ⟨0, _⟩ => show win1_12.index t (0 : Fin 2) * 4096 + 1 * (i 0).val = (i 0).val; omega
    | ⟨1, _⟩ => show win1_12.index t (1 : Fin 2) * 51 + 1 * (i 1).val = (i 1).val; omega
  have h13 : ∀ i : S51.Idx, ((cfg1.win 13).blk t).view.emb i = i := fun i => by
    funext a; apply Fin.ext
    match a with
    | ⟨0, _⟩ => show win1_13.index t (0 : Fin 1) * 51 + 1 * (i 0).val = (i 0).val; omega
  have h14 : ∀ i : S4096x51.Idx, ((cfg1.win 14).blk t).view.emb i = i := fun i => by
    funext a; apply Fin.ext
    match a with
    | ⟨0, _⟩ => show win1_14.index t (0 : Fin 2) * 4096 + 1 * (i 0).val = (i 0).val; omega
    | ⟨1, _⟩ => show win1_14.index t (1 : Fin 2) * 51 + 1 * (i 1).val = (i 1).val; omega
  have h15 : ∀ i : S51.Idx, ((cfg1.win 15).blk t).view.emb i = i := fun i => by
    funext a; apply Fin.ext
    match a with
    | ⟨0, _⟩ => show win1_15.index t (0 : Fin 1) * 51 + 1 * (i 0).val = (i 0).val; omega
  have hj : (((cfg1.win 16).blk t).view.emb (ix2 p j)) 1 = j :=
    Fin.ext (by show win1_16.index t (1 : Fin 2) * 51 + 1 * j.val = j.val; omega)
  refine (pay1_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) p j).trans ?_
  refine rel_congr ?_ ?_ ?_ ?_ ?_ ?_ ?_ ?_ ?_ ?_ ?_ ?_ ?_ ?_ ?_ ?_ ?_
  · exact funext fun k => congrArg (V c main_v31) (h0 k)
  · exact funext fun k => congrArg (V c main_arg3) (h1 k)
  · exact funext fun k => congrArg (V c main_arg4) (h2 k)
  · exact congrArg (V c main_v45) h3
  · exact funext fun i => congrArg (V c main_v1) (h4 i)
  · exact funext fun i => congrArg (V c main_arg8) (h5 i)
  · exact funext fun i => congrArg (V c main_v2) (h6 i)
  · exact funext fun i => congrArg (V c main_arg10) (h7 i)
  · exact funext fun i => congrArg (V c main_v3) (h8 i)
  · exact funext fun i => congrArg (V c main_arg12) (h9 i)
  · exact funext fun i => congrArg (V c main_v4) (h10 i)
  · exact funext fun i => congrArg (V c main_arg14) (h11 i)
  · exact funext fun i => congrArg (V c main_v5) (h12 i)
  · exact funext fun i => congrArg (V c main_arg16) (h13 i)
  · exact funext fun i => congrArg (V c main_v6) (h14 i)
  · exact funext fun i => congrArg (V c main_arg18) (h15 i)
  · exact hj.symm

/-- An index of the output array lies in point `t`'s block exactly when each coordinate lies in the block's range. -/
theorem mem_blk (t : Fin cfg1.N) (i : S16384x51.Idx) :
    i ∈ ((cfg1.win 16).blk t).view.set ↔ ∀ a : Fin 2, win1_16.index t a * S128x51.size a ≤ (i a).val
      ∧ (i a).val < win1_16.index t a * S128x51.size a + S128x51.size a := by
  show i ∈ ((View.whole main_v46).slice (win1_16.rect t)).set ↔ _
  rw [View.set_slice_whole, Rect.mem_set_unit]
  exact Iff.rfl

/-- Every row of the output array belongs to the block of the point numbered by the row divided by 128. -/
theorem cover (i : S16384x51.Idx) :
    ∃ t : Fin cfg1.N, (cfg1.win 16).flush t = true ∧ i ∈ ((cfg1.win 16).blk t).view.set := by
  have hi0 : (i 0).val < 16384 := (i 0).isLt
  have hi1 : (i 1).val < 51 := (i 1).isLt
  have hN : cfg1.N = 128 := N_1
  refine ⟨⟨(i 0).val / 128, by rw [hN]; omega⟩, flush1_16 _, ?_⟩
  obtain ⟨-, -, -, -, -, -, -, -, -, -, -, -, -, -, -, -, -, -, -, -, -, -, -, -, -, -, e16_0, e16_1⟩ := idx_facts ⟨(i 0).val / 128, by rw [hN]; omega⟩
  rw [mem_blk]
  intro a
  match a with
  | ⟨0, _⟩ =>
    show win1_16.index _ (0 : Fin 2) * 128 ≤ (i 0).val ∧ (i 0).val < win1_16.index _ (0 : Fin 2) * 128 + 128
    rw [e16_0]
    show (i 0).val / 128 * 128 ≤ (i 0).val ∧ (i 0).val < (i 0).val / 128 * 128 + 128
    omega
  | ⟨1, _⟩ =>
    show win1_16.index _ (1 : Fin 2) * 51 ≤ (i 1).val ∧ (i 1).val < win1_16.index _ (1 : Fin 2) * 51 + 51
    rw [e16_1]
    omega

set_option maxHeartbeats 4000000 in
/-- The array the second launch leaves: the scores of the arrays it found. -/
theorem final (c : Dev nD) :
    (dat1 V c).arrAt 16 cfg1.N = relAll (V c main_v31) (V c main_arg3) (V c main_arg4) (V c main_v45) (V c main_v1) (V c main_arg8) (V c main_v2) (V c main_arg10) (V c main_v3) (V c main_arg12) (V c main_v4) (V c main_arg14) (V c main_v5) (V c main_arg16) (V c main_v6) (V c main_arg18) :=
  (dat1 V c).arrAt_eq_of_cover 16 _ (fun t _ => flushed_eq V c t) cover

end Cert.KernelIdeal.Region1

end
-- ==== Proof.HostValues.lean ====
/-
  The contents of the arrays each launch reads, in terms of the program's arguments.

  Before the first launch the host only narrows the seven weight matrices (a change of float format); between the
  launches it reshapes and slices the first launch's result into head and tail halves, gathers the per-pair context
  rows and the frequency rows, and leaves everything else alone. So each array the second launch reads is either an
  argument as launched, a narrowed weight matrix, or one of the two gathered arrays.
-/
import proofs.«166788_j39986145525795_1_alg».proof.Proof.Gen.KernelIdeal.Frame
import Idealize.ShloMosaic.Lib.StableHlo.Run

set_option maxRecDepth 16384

noncomputable section

namespace Cert.KernelIdeal.HostValues

open Cert.KernelIdeal Cert.KernelIdeal.Gen Idealize.ShloMosaic Idealize.ShloMosaic.TcCoe Idealize.SL.Sem
open Idealize.ShloMosaic.StableHlo

variable {F : FTy → Type} [FloatOps F]

/-- The per-pair context rows: the head half of the subject's embedding beside the tail half of the object's, each
    gathered by the pair's (wrapped) index. -/
def ctxOf (X : FVec F S4096x1024 .f32) (I : (⟨S16384x2, .i32⟩ : BufTy).Contents (Elt F)) : FVec F S16384x1024 .f32 :=
  (concatenate S16384x1024 1 [⟨S16384x512, (Host.gather gather_S4096x512_S16384x1_S16384x512_1_0_n_n_0_1_1512 (shapeCast _ (extractStridedSlice S4096x1x512 ![0, 0, 0] (shapeCast _ X shapeCasts_S4096x1024_S4096x2x512) slices_S4096x2x512_S4096x1x512_0_0_0) shapeCasts_S4096x1x512_S4096x512) (broadcastInDim S16384x1 ![0] bcast_S16384_S16384x1_0 (select (cmpi .slt (shapeCast _ (extractStridedSlice S16384x1 ![0, 0] I slices_S16384x2_S16384x1_0_0) shapeCasts_S16384x1_S16384) (broadcastInDim S16384 ![] bcast_S_S16384 (constantI S_ 32 0#32))) (addi (shapeCast _ (extractStridedSlice S16384x1 ![0, 0] I slices_S16384x2_S16384x1_0_0) shapeCasts_S16384x1_S16384) (broadcastInDim S16384 ![] bcast_S_S16384 (constantI S_ 32 4096#32))) (shapeCast _ (extractStridedSlice S16384x1 ![0, 0] I slices_S16384x2_S16384x1_0_0) shapeCasts_S16384x1_S16384))))⟩, ⟨S16384x512, (Host.gather gather_S4096x512_S16384x1_S16384x512_1_0_n_n_0_1_1512 (shapeCast _ (extractStridedSlice S4096x1x512 ![0, 1, 0] (shapeCast _ X shapeCasts_S4096x1024_S4096x2x512) slices_S4096x2x512_S4096x1x512_0_1_0) shapeCasts_S4096x1x512_S4096x512) (broadcastInDim S16384x1 ![0] bcast_S16384_S16384x1_0 (select (cmpi .slt (shapeCast _ (extractStridedSlice S16384x1 ![0, 1] I slices_S16384x2_S16384x1_0_1) shapeCasts_S16384x1_S16384) (broadcastInDim S16384 ![] bcast_S_S16384 (constantI S_ 32 0#32))) (addi (shapeCast _ (extractStridedSlice S16384x1 ![0, 1] I slices_S16384x2_S16384x1_0_1) shapeCasts_S16384x1_S16384) (broadcastInDim S16384 ![] bcast_S_S16384 (constantI S_ 32 4096#32))) (shapeCast _ (extractStridedSlice S16384x1 ![0, 1] I slices_S16384x2_S16384x1_0_1) shapeCasts_S16384x1_S16384))))⟩] concatenates_S16384x512_S16384x512_S16384x1024_d1)

/-- The per-pair frequency rows: the table's row at the (wrapped) index `151 · subject class + object class`. -/
def frqOf (T : FVec F S22801x51 .f32) (I : (⟨S16384x2, .i32⟩ : BufTy).Contents (Elt F)) : FVec F S16384x51 .f32 :=
  (Host.gather gather_S22801x51_S16384x1_S16384x51_1_0_n_n_0_1_151 T (broadcastInDim S16384x1 ![0] bcast_S16384_S16384x1_0 (select (cmpi .slt (addi (muli (shapeCast _ (extractStridedSlice S16384x1 ![0, 0] I slices_S16384x2_S16384x1_0_0) shapeCasts_S16384x1_S16384) (broadcastInDim S16384 ![] bcast_S_S16384 (constantI S_ 32 151#32))) (shapeCast _ (extractStridedSlice S16384x1 ![0, 1] I slices_S16384x2_S16384x1_0_1) shapeCasts_S16384x1_S16384)) (broadcastInDim S16384 ![] bcast_S_S16384 (constantI S_ 32 0#32))) (addi (addi (muli (shapeCast _ (extractStridedSlice S16384x1 ![0, 0] I slices_S16384x2_S16384x1_0_0) shapeCasts_S16384x1_S16384) (broadcastInDim S16384 ![] bcast_S_S16384 (constantI S_ 32 151#32))) (shapeCast _ (extractStridedSlice S16384x1 ![0, 1] I slices_S16384x2_S16384x1_0_1) shapeCasts_S16384x1_S16384)) (broadcastInDim S16384 ![] bcast_S_S16384 (constantI S_ 32 22801#32))) (addi (muli (shapeCast _ (extractStridedSlice S16384x1 ![0, 0] I slices_S16384x2_S16384x1_0_0) shapeCasts_S16384x1_S16384) (broadcastInDim S16384 ![] bcast_S_S16384 (constantI S_ 32 151#32))) (shapeCast _ (extractStridedSlice S16384x1 ![0, 1] I slices_S16384x2_S16384x1_0_1) shapeCasts_S16384x1_S16384)))))

variable (m : (ℓ : Loc nD τ sig) → Buf (Elt F) ℓ) (ρ : Dev nD → PrngReg)

/-! ## Before the first launch -/

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results <;> rfl
theorem W1_v0 (c : Dev nD) : W1 m ρ c (Proc.devRef .tc main_v0)
    = truncf .bf16 (m ((c : Thread nD τ).loc main_arg5)) bitsLt_bf16_f32 := by
  show StableHlo.after hostOps0 (W0 m ρ c) (Proc.devRef .tc main_v0) = _
  after_results <;> rfl

/-! ## After the first launch: what it did not write is as before it -/

theorem W2_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results <;> rfl
theorem W2_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results <;> rfl
theorem W2_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results <;> rfl
theorem W2_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results <;> rfl
theorem W2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results <;> rfl
theorem W2_arg10 (c : Dev nD) : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results <;> rfl
theorem W2_arg12 (c : Dev nD) : W2 m ρ c (Proc.devRef .tc main_arg12) = m ((c : Thread nD τ).loc main_arg12) := by
  rw [W2_of_ne m ρ c main_arg12 (by decide)]
  show StableHlo.after hostOps0 (W0 m ρ c) (Proc.devRef .tc main_arg12) = _
  after_results <;> rfl
theorem W2_arg14 (c : Dev nD) : W2 m ρ c (Proc.devRef .tc main_arg14) = m ((c : Thread nD τ).loc main_arg14) := by
  rw [W2_of_ne m ρ c main_arg14 (by decide)]
  show StableHlo.after hostOps0 (W0 m ρ c) (Proc.devRef .tc main_arg14) = _
  after_results <;> rfl
theorem W2_arg16 (c : Dev nD) : W2 m ρ c (Proc.devRef .tc main_arg16) = m ((c : Thread nD τ).loc main_arg16) := by
  rw [W2_of_ne m ρ c main_arg16 (by decide)]
  show StableHlo.after hostOps0 (W0 m ρ c) (Proc.devRef .tc main_arg16) = _
  after_results <;> rfl
theorem W2_arg18 (c : Dev nD) : W2 m ρ c (Proc.devRef .tc main_arg18) = m ((c : Thread nD τ).loc main_arg18) := by
  rw [W2_of_ne m ρ c main_arg18 (by decide)]
  show StableHlo.after hostOps0 (W0 m ρ c) (Proc.devRef .tc main_arg18) = _
  after_results <;> rfl
theorem W2_arg19 (c : Dev nD) : W2 m ρ c (Proc.devRef .tc main_arg19) = m ((c : Thread nD τ).loc main_arg19) := by
  rw [W2_of_ne m ρ c main_arg19 (by decide)]
  show StableHlo.after hostOps0 (W0 m ρ c) (Proc.devRef .tc main_arg19) = _
  after_results <;> rfl
theorem W2_v1 (c : Dev nD) : W2 m ρ c (Proc.devRef .tc main_v1)
    = truncf .bf16 (m ((c : Thread nD τ).loc main_arg7)) bitsLt_bf16_f32 := by
  rw [W2_of_ne m ρ c main_v1 (by decide)]
  show StableHlo.after hostOps0 (W0 m ρ c) (Proc.devRef .tc main_v1) = _
  after_results <;> rfl
theorem W2_v2 (c : Dev nD) : W2 m ρ c (Proc.devRef .tc main_v2)
    = truncf .bf16 (m ((c : Thread nD τ).loc main_arg9)) bitsLt_bf16_f32 := by
  rw [W2_of_ne m ρ c main_v2 (by decide)]
  show StableHlo.after hostOps0 (W0 m ρ c) (Proc.devRef .tc main_v2) = _
  after_results <;> rfl
theorem W2_v3 (c : Dev nD) : W2 m ρ c (Proc.devRef .tc main_v3)
    = truncf .bf16 (m ((c : Thread nD τ).loc main_arg11)) bitsLt_bf16_f32 := by
  rw [W2_of_ne m ρ c main_v3 (by decide)]
  show StableHlo.after hostOps0 (W0 m ρ c) (Proc.devRef .tc main_v3) = _
  after_results <;> rfl
theorem W2_v4 (c : Dev nD) : W2 m ρ c (Proc.devRef .tc main_v4)
    = truncf .bf16 (m ((c : Thread nD τ).loc main_arg13)) bitsLt_bf16_f32 := by
  rw [W2_of_ne m ρ c main_v4 (by decide)]
  show StableHlo.after hostOps0 (W0 m ρ c) (Proc.devRef .tc main_v4) = _
  after_results <;> rfl
theorem W2_v5 (c : Dev nD) : W2 m ρ c (Proc.devRef .tc main_v5)
    = truncf .bf16 (m ((c : Thread nD τ).loc main_arg15)) bitsLt_bf16_f32 := by
  rw [W2_of_ne m ρ c main_v5 (by decide)]
  show StableHlo.after hostOps0 (W0 m ρ c) (Proc.devRef .tc main_v5) = _
  after_results <;> rfl
theorem W2_v6 (c : Dev nD) : W2 m ρ c (Proc.devRef .tc main_v6)
    = truncf .bf16 (m ((c : Thread nD τ).loc main_arg17)) bitsLt_bf16_f32 := by
  rw [W2_of_ne m ρ c main_v6 (by decide)]
  show StableHlo.after hostOps0 (W0 m ρ c) (Proc.devRef .tc main_v6) = _
  after_results <;> rfl

/-! ## Before the second launch -/

theorem W3_arg3 (c : Dev nD) : W3 m ρ c (Proc.devRef .tc main_arg3) = m ((c : Thread nD τ).loc main_arg3) := by
  show StableHlo.after hostOps1 (W2 m ρ c) (Proc.devRef .tc main_arg3) = _
  after_results_simp
  exact W2_arg3 m ρ c
theorem W3_arg4 (c : Dev nD) : W3 m ρ c (Proc.devRef .tc main_arg4) = m ((c : Thread nD τ).loc main_arg4) := by
  show StableHlo.after hostOps1 (W2 m ρ c) (Proc.devRef .tc main_arg4) = _
  after_results_simp
  exact W2_arg4 m ρ c
theorem W3_arg8 (c : Dev nD) : W3 m ρ c (Proc.devRef .tc main_arg8) = m ((c : Thread nD τ).loc main_arg8) := by
  show StableHlo.after hostOps1 (W2 m ρ c) (Proc.devRef .tc main_arg8) = _
  after_results_simp
  exact W2_arg8 m ρ c
theorem W3_arg10 (c : Dev nD) : W3 m ρ c (Proc.devRef .tc main_arg10) = m ((c : Thread nD τ).loc main_arg10) := by
  show StableHlo.after hostOps1 (W2 m ρ c) (Proc.devRef .tc main_arg10) = _
  after_results_simp
  exact W2_arg10 m ρ c
theorem W3_arg12 (c : Dev nD) : W3 m ρ c (Proc.devRef .tc main_arg12) = m ((c : Thread nD τ).loc main_arg12) := by
  show StableHlo.after hostOps1 (W2 m ρ c) (Proc.devRef .tc main_arg12) = _
  after_results_simp
  exact W2_arg12 m ρ c
theorem W3_arg14 (c : Dev nD) : W3 m ρ c (Proc.devRef .tc main_arg14) = m ((c : Thread nD τ).loc main_arg14) := by
  show StableHlo.after hostOps1 (W2 m ρ c) (Proc.devRef .tc main_arg14) = _
  after_results_simp
  exact W2_arg14 m ρ c
theorem W3_arg16 (c : Dev nD) : W3 m ρ c (Proc.devRef .tc main_arg16) = m ((c : Thread nD τ).loc main_arg16) := by
  show StableHlo.after hostOps1 (W2 m ρ c) (Proc.devRef .tc main_arg16) = _
  after_results_simp
  exact W2_arg16 m ρ c
theorem W3_arg18 (c : Dev nD) : W3 m ρ c (Proc.devRef .tc main_arg18) = m ((c : Thread nD τ).loc main_arg18) := by
  show StableHlo.after hostOps1 (W2 m ρ c) (Proc.devRef .tc main_arg18) = _
  after_results_simp
  exact W2_arg18 m ρ c
theorem W3_v1 (c : Dev nD) : W3 m ρ c (Proc.devRef .tc main_v1)
    = truncf .bf16 (m ((c : Thread nD τ).loc main_arg7)) bitsLt_bf16_f32 := by
  show StableHlo.after hostOps1 (W2 m ρ c) (Proc.devRef .tc main_v1) = _
  after_results_simp
  exact W2_v1 m ρ c
theorem W3_v2 (c : Dev nD) : W3 m ρ c (Proc.devRef .tc main_v2)
    = truncf .bf16 (m ((c : Thread nD τ).loc main_arg9)) bitsLt_bf16_f32 := by
  show StableHlo.after hostOps1 (W2 m ρ c) (Proc.devRef .tc main_v2) = _
  after_results_simp
  exact W2_v2 m ρ c
theorem W3_v3 (c : Dev nD) : W3 m ρ c (Proc.devRef .tc main_v3)
    = truncf .bf16 (m ((c : Thread nD τ).loc main_arg11)) bitsLt_bf16_f32 := by
  show StableHlo.after hostOps1 (W2 m ρ c) (Proc.devRef .tc main_v3) = _
  after_results_simp
  exact W2_v3 m ρ c
theorem W3_v4 (c : Dev nD) : W3 m ρ c (Proc.devRef .tc main_v4)
    = truncf .bf16 (m ((c : Thread nD τ).loc main_arg13)) bitsLt_bf16_f32 := by
  show StableHlo.after hostOps1 (W2 m ρ c) (Proc.devRef .tc main_v4) = _
  after_results_simp
  exact W2_v4 m ρ c
theorem W3_v5 (c : Dev nD) : W3 m ρ c (Proc.devRef .tc main_v5)
    = truncf .bf16 (m ((c : Thread nD τ).loc main_arg15)) bitsLt_bf16_f32 := by
  show StableHlo.after hostOps1 (W2 m ρ c) (Proc.devRef .tc main_v5) = _
  after_results_simp
  exact W2_v5 m ρ c
theorem W3_v6 (c : Dev nD) : W3 m ρ c (Proc.devRef .tc main_v6)
    = truncf .bf16 (m ((c : Thread nD τ).loc main_arg17)) bitsLt_bf16_f32 := by
  show StableHlo.after hostOps1 (W2 m ρ c) (Proc.devRef .tc main_v6) = _
  after_results_simp
  exact W2_v6 m ρ c

set_option maxHeartbeats 4000000 in
/-- The context rows the second launch reads: gathered from the first launch's result. -/
theorem W3_v31 (c : Dev nD) : W3 m ρ c (Proc.devRef .tc main_v31)
    = ctxOf (W2 m ρ c (Proc.devRef .tc main_v7)) (m ((c : Thread nD τ).loc main_arg1)) := by
  show StableHlo.after hostOps1 (W2 m ρ c) (Proc.devRef .tc main_v31) = _
  after_results
  rw [W2_arg1 m ρ c]
  rfl

set_option maxHeartbeats 4000000 in
/-- The frequency rows the second launch reads: gathered from the table. -/
theorem W3_v45 (c : Dev nD) : W3 m ρ c (Proc.devRef .tc main_v45)
    = frqOf (m ((c : Thread nD τ).loc main_arg19)) (m ((c : Thread nD τ).loc main_arg2)) := by
  show StableHlo.after hostOps1 (W2 m ρ c) (Proc.devRef .tc main_v45) = _
  after_results
  rw [W2_arg19 m ρ c, W2_arg2 m ρ c]
  rfl

end Cert.KernelIdeal.HostValues

end
-- ==== Proof.KernelValue.lean ====
/-
  The kernel program's result as the specification of its arguments.

  The first launch leaves the embedding of every object; the host gathers the per-pair context rows from it and the
  frequency rows from the table; the second launch leaves the scores of every pair computed from those rows, the box
  and union features and the weights. Narrowing a weight matrix changes no value on the extended reals.
-/
import proofs.«166788_j39986145525795_1_alg».proof.Proof.KernelRun
import proofs.«166788_j39986145525795_1_alg».proof.Proof.Region0
import proofs.«166788_j39986145525795_1_alg».proof.Proof.Region1
import proofs.«166788_j39986145525795_1_alg».proof.Proof.HostValues

set_option maxRecDepth 16384

noncomputable section

namespace Cert.KernelIdeal.KernelValue

open Cert.KernelIdeal Cert.KernelIdeal.Gen Idealize.ShloMosaic Idealize.ShloMosaic.TcCoe Idealize.SL.Sem Cert.Spec
open Cert.KernelIdeal.HostValues

variable (m : (ℓ : Loc nD τ sig) → Buf (Elt Ideal) ℓ) (ρ : Dev nD → PrngReg)

/-- The scores of every pair, from the program's arguments on core `c`. -/
def scores (c : Dev nD) : S16384x51.Idx → EReal :=
  relAll (ctxOf (embAll (m ((c.tc : Thread nD τ).loc main_arg0)) (m ((c.tc : Thread nD τ).loc main_arg5)) (m ((c.tc : Thread nD τ).loc main_arg6))) (m ((c.tc : Thread nD τ).loc main_arg1)))
    (m ((c.tc : Thread nD τ).loc main_arg3)) (m ((c.tc : Thread nD τ).loc main_arg4)) (frqOf (m ((c.tc : Thread nD τ).loc main_arg19)) (m ((c.tc : Thread nD τ).loc main_arg2)))
    (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
    (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))

/-- What the first launch leaves in its result array: the embedding of every object. -/
theorem W2_v7 (c : Dev nD) : W2 m ρ c (Proc.devRef .tc main_v7) = embAll (m ((c.tc : Thread nD τ).loc main_arg0)) (m ((c.tc : Thread nD τ).loc main_arg5)) (m ((c.tc : Thread nD τ).loc main_arg6)) := by
  refine (W2_arr m ρ c 3).trans ((Region0.final (V1 m ρ) c).trans ?_)
  dsimp only [V1]
  rw [W1_arg0 m ρ c, W1_v0 m ρ c, W1_arg6 m ρ c]
  rfl

/-- What the second launch leaves in the program's result array: the scores of every pair. -/
theorem W4_result (c : Dev nD) : W4 m ρ c (Proc.devRef .tc main_v46) = scores m c := by
  refine (W4_arr m ρ c 16).trans ((Region1.final (V3 m ρ) c).trans ?_)
  dsimp only [V3]
  rw [W3_v31 m ρ c, W3_arg3 m ρ c, W3_arg4 m ρ c, W3_v45 m ρ c, W3_v1 m ρ c, W3_arg8 m ρ c, W3_v2 m ρ c,
    W3_arg10 m ρ c, W3_v3 m ρ c, W3_arg12 m ρ c, W3_v4 m ρ c, W3_arg14 m ρ c, W3_v5 m ρ c, W3_arg16 m ρ c,
    W3_v6 m ρ c, W3_arg18 m ρ c, W2_v7 m ρ c]
  rfl

/-- Every weakly fair execution of the kernel program ends with the result array at the scores and each argument as
    launched. -/
theorem run : θ_run defs (onTc (τ := τ) (main (F := Ideal))) ⟨m, fun _ => 0, ρ⟩ (fun r => ∀ c : Dev nD,
      r.2.mem ((c.tc : Thread nD τ).loc main_v46) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨(h c).1.trans (W4_result m ρ c), (h c).2⟩) (ResultRun.run m ρ)

end Cert.KernelIdeal.KernelValue

end
-- ==== Proof.RefValue.lean ====
/-
  The reference program's result, read as the specification.

  Its run ends with the result array at one long term of the arguments. The term is cut here into named stages — the
  embedding of every object, the gathers that assemble the per-pair context rows and the frequency rows (kept as they
  are: nothing below looks inside them), the gated context feature, and the final scores — and the last two are read
  entry by entry: every layer is an affine layer of one row, the rectifiers are maxima with zero, and the host's
  `1 / (1 + exp(−x))` is the logistic function.
-/
import proofs.«166788_j39986145525795_1_alg».proof.Proof.Gen.ReferenceIdeal.Run
import proofs.«166788_j39986145525795_1_alg».proof.Proof.Layer

set_option maxRecDepth 16384

noncomputable section

namespace Cert.ReferenceIdeal.RefValue

open Cert.ReferenceIdeal Cert.ReferenceIdeal.Gen Idealize.ShloMosaic Idealize.ShloMosaic.TcCoe Idealize.ShloMosaic.ValueIdx Cert.Spec

variable {F : FTy → Type} [FloatOps F]

/-- The embedding of every object as the host computes it: a product plus the bias laid along the rows. -/
def embR (X : FVec F S4096x512 .f32) (W : FVec F S512x1024 .f32) (b : FVec F S1024 .f32) : FVec F S4096x1024 .f32 :=
  addf (Host.dotGeneral dot_S4096x512_S512x1024_S4096x1024_1_0_0_1_n_n none X W) (broadcastInDim S4096x1024 ![0, 1] bcast_S1x1024_S4096x1024_0_1 (broadcastInDim S1x1024 ![1] bcast_S1024_S1x1024_1 b))

/-- The per-pair context rows: the head half of the subject's embedding beside the tail half of the object's, each
    gathered by the pair's (wrapped) index. -/
def ctxOf (X : FVec F S4096x1024 .f32) (I : (⟨S16384x2, .i32⟩ : BufTy).Contents (Elt F)) : FVec F S16384x1024 .f32 :=
  (concatenate S16384x1024 1 [⟨S16384x512, (Host.gather gather_S4096x512_S16384x1_S16384x512_1_0_n_n_0_1_1512 (shapeCast _ (extractStridedSlice S4096x1x512 ![0, 0, 0] (shapeCast _ X shapeCasts_S4096x1024_S4096x2x512) slices_S4096x2x512_S4096x1x512_0_0_0) shapeCasts_S4096x1x512_S4096x512) (broadcastInDim S16384x1 ![0] bcast_S16384_S16384x1_0 (select (cmpi .slt (shapeCast _ (extractStridedSlice S16384x1 ![0, 0] I slices_S16384x2_S16384x1_0_0) shapeCasts_S16384x1_S16384) (broadcastInDim S16384 ![] bcast_S_S16384 (constantI S_ 32 0#32))) (addi (shapeCast _ (extractStridedSlice S16384x1 ![0, 0] I slices_S16384x2_S16384x1_0_0) shapeCasts_S16384x1_S16384) (broadcastInDim S16384 ![] bcast_S_S16384 (constantI S_ 32 4096#32))) (shapeCast _ (extractStridedSlice S16384x1 ![0, 0] I slices_S16384x2_S16384x1_0_0) shapeCasts_S16384x1_S16384))))⟩, ⟨S16384x512, (Host.gather gather_S4096x512_S16384x1_S16384x512_1_0_n_n_0_1_1512 (shapeCast _ (extractStridedSlice S4096x1x512 ![0, 1, 0] (shapeCast _ X shapeCasts_S4096x1024_S4096x2x512) slices_S4096x2x512_S4096x1x512_0_1_0) shapeCasts_S4096x1x512_S4096x512) (broadcastInDim S16384x1 ![0] bcast_S16384_S16384x1_0 (select (cmpi .slt (shapeCast _ (extractStridedSlice S16384x1 ![0, 1] I slices_S16384x2_S16384x1_0_1) shapeCasts_S16384x1_S16384) (broadcastInDim S16384 ![] bcast_S_S16384 (constantI S_ 32 0#32))) (addi (shapeCast _ (extractStridedSlice S16384x1 ![0, 1] I slices_S16384x2_S16384x1_0_1) shapeCasts_S16384x1_S16384) (broadcastInDim S16384 ![] bcast_S_S16384 (constantI S_ 32 4096#32))) (shapeCast _ (extractStridedSlice S16384x1 ![0, 1] I slices_S16384x2_S16384x1_0_1) shapeCasts_S16384x1_S16384))))⟩] concatenates_S16384x512_S16384x512_S16384x1024_d1)

/-- The per-pair frequency rows: the table's row at the (wrapped) index `151 · subject class + object class`. -/
def frqOf (T : FVec F S22801x51 .f32) (I : (⟨S16384x2, .i32⟩ : BufTy).Contents (Elt F)) : FVec F S16384x51 .f32 :=
  (Host.gather gather_S22801x51_S16384x1_S16384x51_1_0_n_n_0_1_151 T (broadcastInDim S16384x1 ![0] bcast_S16384_S16384x1_0 (select (cmpi .slt (addi (muli (shapeCast _ (extractStridedSlice S16384x1 ![0, 0] I slices_S16384x2_S16384x1_0_0) shapeCasts_S16384x1_S16384) (broadcastInDim S16384 ![] bcast_S_S16384 (constantI S_ 32 151#32))) (shapeCast _ (extractStridedSlice S16384x1 ![0, 1] I slices_S16384x2_S16384x1_0_1) shapeCasts_S16384x1_S16384)) (broadcastInDim S16384 ![] bcast_S_S16384 (constantI S_ 32 0#32))) (addi (addi (muli (shapeCast _ (extractStridedSlice S16384x1 ![0, 0] I slices_S16384x2_S16384x1_0_0) shapeCasts_S16384x1_S16384) (broadcastInDim S16384 ![] bcast_S_S16384 (constantI S_ 32 151#32))) (shapeCast _ (extractStridedSlice S16384x1 ![0, 1] I slices_S16384x2_S16384x1_0_1) shapeCasts_S16384x1_S16384)) (broadcastInDim S16384 ![] bcast_S_S16384 (constantI S_ 32 22801#32))) (addi (muli (shapeCast _ (extractStridedSlice S16384x1 ![0, 0] I slices_S16384x2_S16384x1_0_0) shapeCasts_S16384x1_S16384) (broadcastInDim S16384 ![] bcast_S_S16384 (constantI S_ 32 151#32))) (shapeCast _ (extractStridedSlice S16384x1 ![0, 1] I slices_S16384x2_S16384x1_0_1) shapeCasts_S16384x1_S16384)))))

/-- The gated context feature of every pair. -/
def postR (CTX : FVec F S16384x1024 .f32) (BBOX : FVec F S16384x32 .f32)
    (Wpc : FVec F S1024x4096 .f32) (bpc : FVec F S4096 .f32) (Ws1 : FVec F S32x512 .f32) (bs1 : FVec F S512 .f32)
    (Ws2 : FVec F S512x4096 .f32) (bs2 : FVec F S4096 .f32) : FVec F S16384x4096 .f32 :=
  (mulf (maximumf (addf (Host.dotGeneral dot_S16384x1024_S1024x4096_S16384x4096_1_0_0_1_n_n none CTX Wpc) (broadcastInDim S16384x4096 ![0, 1] bcast_S1x4096_S16384x4096_0_1 (broadcastInDim S1x4096 ![1] bcast_S4096_S1x4096_1 bpc))) (broadcastInDim S16384x4096 ![] bcast_S_S16384x4096 (constant S_ .f32 0x00000000#32))) (maximumf (addf (Host.dotGeneral dot_S16384x512_S512x4096_S16384x4096_1_0_0_1_n_n none (maximumf (addf (Host.dotGeneral dot_S16384x32_S32x512_S16384x512_1_0_0_1_n_n none BBOX Ws1) (broadcastInDim S16384x512 ![0, 1] bcast_S1x512_S16384x512_0_1 (broadcastInDim S1x512 ![1] bcast_S512_S1x512_1 bs1))) (broadcastInDim S16384x512 ![] bcast_S_S16384x512 (constant S_ .f32 0x00000000#32))) Ws2) (broadcastInDim S16384x4096 ![0, 1] bcast_S1x4096_S16384x4096_0_1 (broadcastInDim S1x4096 ![1] bcast_S4096_S1x4096_1 bs2))) (broadcastInDim S16384x4096 ![] bcast_S_S16384x4096 (constant S_ .f32 0x00000000#32))))

/-- The scores of every pair. -/
def tailR (CTX : FVec F S16384x1024 .f32) (BBOX : FVec F S16384x32 .f32) (UF : FVec F S16384x4096 .f32)
    (FRQ : FVec F S16384x51 .f32)
    (Wpc : FVec F S1024x4096 .f32) (bpc : FVec F S4096 .f32) (Ws1 : FVec F S32x512 .f32) (bs1 : FVec F S512 .f32)
    (Ws2 : FVec F S512x4096 .f32) (bs2 : FVec F S4096 .f32)
    (Wctx : FVec F S4096x51 .f32) (bctx : FVec F S51 .f32) (Wvis : FVec F S4096x51 .f32) (bvis : FVec F S51 .f32)
    (Wgate : FVec F S4096x51 .f32) (bgate : FVec F S51 .f32) : FVec F S16384x51 .f32 :=
  mulf (addf (Host.dotGeneral dot_S16384x4096_S4096x51_S16384x51_1_0_0_1_n_n none (postR CTX BBOX Wpc bpc Ws1 bs1 Ws2 bs2) Wctx) (broadcastInDim S16384x51 ![0, 1] bcast_S1x51_S16384x51_0_1 (broadcastInDim S1x51 ![1] bcast_S51_S1x51_1 bctx))) (Host.divf (broadcastInDim S16384x51 ![] bcast_S_S16384x51 (constant S_ .f32 0x3F800000#32)) (addf (broadcastInDim S16384x51 ![] bcast_S_S16384x51 (constant S_ .f32 0x3F800000#32)) (Host.exp (Host.negf (addf (addf (addf (Host.dotGeneral dot_S16384x4096_S4096x51_S16384x51_1_0_0_1_n_n none UF Wvis) (broadcastInDim S16384x51 ![0, 1] bcast_S1x51_S16384x51_0_1 (broadcastInDim S1x51 ![1] bcast_S51_S1x51_1 bvis))) FRQ) (addf (Host.dotGeneral dot_S16384x4096_S4096x51_S16384x51_1_0_0_1_n_n none (postR CTX BBOX Wpc bpc Ws1 bs1 Ws2 bs2) Wgate) (broadcastInDim S16384x51 ![0, 1] bcast_S1x51_S16384x51_0_1 (broadcastInDim S1x51 ![1] bcast_S51_S1x51_1 bgate))))))))

/-- The run's result term is these stages composed. -/
theorem res_eq (m : (ℓ : Loc nD τ sig) → Buf (Elt F) ℓ) (c : Dev nD) :
    Value.res_main_v78 m c
      = tailR (ctxOf (embR (m ((c.tc : Thread nD τ).loc main_arg0)) (m ((c.tc : Thread nD τ).loc main_arg5)) (m ((c.tc : Thread nD τ).loc main_arg6))) (m ((c.tc : Thread nD τ).loc main_arg1)))
          (m ((c.tc : Thread nD τ).loc main_arg3)) (m ((c.tc : Thread nD τ).loc main_arg4))
          (frqOf (m ((c.tc : Thread nD τ).loc main_arg19)) (m ((c.tc : Thread nD τ).loc main_arg2)))
          (m ((c.tc : Thread nD τ).loc main_arg7)) (m ((c.tc : Thread nD τ).loc main_arg8))
          (m ((c.tc : Thread nD τ).loc main_arg9)) (m ((c.tc : Thread nD τ).loc main_arg10))
          (m ((c.tc : Thread nD τ).loc main_arg11)) (m ((c.tc : Thread nD τ).loc main_arg12))
          (m ((c.tc : Thread nD τ).loc main_arg13)) (m ((c.tc : Thread nD τ).loc main_arg14))
          (m ((c.tc : Thread nD τ).loc main_arg15)) (m ((c.tc : Thread nD τ).loc main_arg16))
          (m ((c.tc : Thread nD τ).loc main_arg17)) (m ((c.tc : Thread nD τ).loc main_arg18)) := by
  unfold Value.res_main_v78 tailR postR ctxOf frqOf embR
  rfl

/-- The host's embedding is the specification's: an affine layer on every row. -/
theorem embR_eq (X : FVec Ideal S4096x512 .f32) (W : FVec Ideal S512x1024 .f32) (b : FVec Ideal S1024 .f32) :
    embR X W b = embAll X W b := by
  funext i
  obtain ⟨r, j, rfl⟩ : ∃ (r : Fin 4096) (j : Fin 1024), i = ix2 r j := ⟨i 0, i 1, eq_ix2 i⟩
  exact Layer.host_layer dot_S4096x512_S512x1024_S4096x1024_1_0_0_1_n_n rfl rfl rfl rfl rfl rfl none X W b _ _ r j

/-- The gated context feature at a pair and a coordinate is the specification's. -/
theorem postR_apply (CTX : FVec Ideal S16384x1024 .f32) (BBOX : FVec Ideal S16384x32 .f32)
    (Wpc : FVec Ideal S1024x4096 .f32) (bpc : FVec Ideal S4096 .f32) (Ws1 : FVec Ideal S32x512 .f32) (bs1 : FVec Ideal S512 .f32)
    (Ws2 : FVec Ideal S512x4096 .f32) (bs2 : FVec Ideal S4096 .f32) (r : Fin 16384) (k : Fin 4096) :
    postR CTX BBOX Wpc bpc Ws1 bs1 Ws2 bs2 (ix2 r k)
      = Spec.post (fun l => CTX (ix2 r l)) (fun q => BBOX (ix2 r q)) Wpc bpc Ws1 bs1 Ws2 bs2 k := by
  unfold postR Spec.post
  rw [mulf_apply, Layer.host_relu_apply, Layer.host_relu_apply]
  rw [Layer.host_layer dot_S16384x1024_S1024x4096_S16384x4096_1_0_0_1_n_n rfl rfl rfl rfl rfl rfl,
    Layer.host_layer dot_S16384x512_S512x4096_S16384x4096_1_0_0_1_n_n rfl rfl rfl rfl rfl rfl]
  congr 3
  funext l
  rw [Layer.host_relu_apply, Layer.host_layer dot_S16384x32_S32x512_S16384x512_1_0_0_1_n_n rfl rfl rfl rfl rfl rfl]

/-- The word of the number one. -/
theorem ofBits_one : Ideal.ofBits .f32 0x3F800000#32 = 1 := by
  simp [Ideal.ofBits, Ideal.ieee, -EReal.coe_mul]; norm_num

/-- The reference's scores are the specification's, pair by pair. -/
theorem tailR_eq (CTX : FVec Ideal S16384x1024 .f32) (BBOX : FVec Ideal S16384x32 .f32) (UF : FVec Ideal S16384x4096 .f32)
    (FRQ : FVec Ideal S16384x51 .f32)
    (Wpc : FVec Ideal S1024x4096 .f32) (bpc : FVec Ideal S4096 .f32) (Ws1 : FVec Ideal S32x512 .f32) (bs1 : FVec Ideal S512 .f32)
    (Ws2 : FVec Ideal S512x4096 .f32) (bs2 : FVec Ideal S4096 .f32)
    (Wctx : FVec Ideal S4096x51 .f32) (bctx : FVec Ideal S51 .f32) (Wvis : FVec Ideal S4096x51 .f32) (bvis : FVec Ideal S51 .f32)
    (Wgate : FVec Ideal S4096x51 .f32) (bgate : FVec Ideal S51 .f32) :
    tailR CTX BBOX UF FRQ Wpc bpc Ws1 bs1 Ws2 bs2 Wctx bctx Wvis bvis Wgate bgate
      = relAll CTX BBOX UF FRQ Wpc bpc Ws1 bs1 Ws2 bs2 Wctx bctx Wvis bvis Wgate bgate := by
  funext i
  obtain ⟨r, j, rfl⟩ : ∃ (r : Fin 16384) (j : Fin 51), i = ix2 r j := ⟨i 0, i 1, eq_ix2 i⟩
  have hp : (fun k => postR CTX BBOX Wpc bpc Ws1 bs1 Ws2 bs2 (ix2 r k))
      = Spec.post (fun l => CTX (ix2 r l)) (fun q => BBOX (ix2 r q)) Wpc bpc Ws1 bs1 Ws2 bs2 :=
    funext fun k => postR_apply CTX BBOX Wpc bpc Ws1 bs1 Ws2 bs2 r k
  unfold tailR relAll rel
  have hvis := Layer.host_layer dot_S16384x4096_S4096x51_S16384x51_1_0_0_1_n_n rfl rfl rfl rfl rfl rfl none UF Wvis bvis
    bcast_S51_S1x51_1 bcast_S1x51_S16384x51_0_1 r j
  have hgate := Layer.host_layer dot_S16384x4096_S4096x51_S16384x51_1_0_0_1_n_n rfl rfl rfl rfl rfl rfl none
    (postR CTX BBOX Wpc bpc Ws1 bs1 Ws2 bs2) Wgate bgate bcast_S51_S1x51_1 bcast_S1x51_S16384x51_0_1 r j
  rw [mulf_apply, Layer.host_layer dot_S16384x4096_S4096x51_S16384x51_1_0_0_1_n_n rfl rfl rfl rfl rfl rfl, hp]
  congr 1
  rw [hostDivf_apply, broadcastInDim_scalar_apply, constant_apply, addf_apply, broadcastInDim_scalar_apply,
    constant_apply, ofBits_one]
  show Ideal.div 1 (1 + Ideal.exp (-(addf (addf _ FRQ) _ (ix2 r j)))) = _
  rw [addf_apply, addf_apply, hvis, hgate, hp]
  rfl

end Cert.ReferenceIdeal.RefValue

end
-- ==== Proof.lean ====
/-
  The certificate: a two-launch scoring head for pairs of detected objects against its plain reference.

  Both programs compute, for every pair `r` and relation class `j`, the score `Spec.rel`: an embedding of every
  object (one affine layer), the pair's context row gathered from it, a gated context feature (two rectified
  branches multiplied), and three small affine layers combined as `ctx · σ(vis + frq + gate)`. The kernel program
  does the embedding in a first launch over 4 row blocks and everything after the gathers in a second launch over 128
  row blocks, with its weights narrowed to a shorter float format; the reference does the same on whole arrays on the
  host. On the extended reals narrowing is the identity, a product into a zero accumulator is the host's product, the
  kernel's logistic is the host's `1 / (1 + exp(−x))`, and a row block of a row-wise function is the function on
  those rows; no law of arithmetic beyond these identities is used, so the inputs' finiteness plays no part.

  The three frames are the generated ones (the reference's is its generated run with the result dropped), the
  idealization ledger is empty, and the value claim joins `KernelValue.run` and the reference's run at the same
  specification term.
-/
import proofs.«166788_j39986145525795_1_alg».proof.Defs
import proofs.«166788_j39986145525795_1_alg».proof.Proof.Gen.Kernel
import proofs.«166788_j39986145525795_1_alg».proof.Proof.Gen.Kernel.Frame
import proofs.«166788_j39986145525795_1_alg».proof.Proof.Gen.KernelIdeal
import proofs.«166788_j39986145525795_1_alg».proof.Proof.Gen.KernelIdeal.Frame
import proofs.«166788_j39986145525795_1_alg».proof.Proof.Gen.ReferenceIdeal
import proofs.«166788_j39986145525795_1_alg».proof.Proof.Gen.Pre_finite_inputs
import proofs.«166788_j39986145525795_1_alg».proof.Proof.Gen.ReferenceIdeal.Run
import proofs.«166788_j39986145525795_1_alg».proof.Proof.KernelValue
import proofs.«166788_j39986145525795_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The gathers are the same host operations in both programs. -/
theorem ctxOf_eq (X : FVec Ideal Cert.KernelIdeal.S4096x1024 .f32)
    (I : (⟨Cert.KernelIdeal.S16384x2, .i32⟩ : BufTy).Contents (Elt Ideal)) :
    Cert.ReferenceIdeal.RefValue.ctxOf X I = Cert.KernelIdeal.HostValues.ctxOf X I := rfl

theorem frqOf_eq (T : FVec Ideal Cert.KernelIdeal.S22801x51 .f32)
    (I : (⟨Cert.KernelIdeal.S16384x2, .i32⟩ : BufTy).Contents (Elt Ideal)) :
    Cert.ReferenceIdeal.RefValue.frqOf T I = Cert.KernelIdeal.HostValues.frqOf T I := rfl

/-- From memories that agree on the arguments, both programs end with the specification's scores. -/
theorem algebraic : Cert.algebraic_KernelIdeal_ReferenceIdeal := by
  intro m ρ m' ρ' _ hagree
  refine ⟨fun c => Cert.KernelIdeal.KernelValue.scores m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18, a19⟩ := hagree c
  rw [Cert.ReferenceIdeal.RefValue.res_eq, Cert.ReferenceIdeal.RefValue.tailR_eq, Cert.ReferenceIdeal.RefValue.embR_eq,
    a0, a1, a2, a3, a4, a5, a6, a7, a8, a9, a10, a11, a12, a13, a14, a15, a16, a17, a18, a19, ctxOf_eq, frqOf_eq]
  rfl

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
